-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1x2048 : Shape := ⟨2, ![1, 2048]⟩
abbrev S4097x1024 : Shape := ⟨2, ![4097, 1024]⟩
abbrev S4097 : Shape := ⟨1, ![4097]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S4097x1024 : S_.BroadcastsInDim S4097x1024 (![] : Fin 0 → Fin S4097x1024.rank)
  reducesTo_S4097x1024_S_d0_1 : S4097x1024.ReducesTo [0, 1] S_
  bcast_S_S4097 : S_.BroadcastsInDim S4097 (![] : Fin 0 → Fin S4097.rank)
  reducesTo_S4097_S_d0 : S4097.ReducesTo [0] S_

variable [Facts]

def fn_part2 {F : FTy → Type} [FloatOps F] (main_arg7 : FVec F S4097x1024 .f32) (main_arg8 : FVec F S4097x1024 .f32) (main_arg9 : FVec F S4097 .f32) (main_v33 : IVec S_ 1) : IVec S_ 1 :=
  let main_v34 : FVec F S4097x1024 .f32 := Host.absf main_arg7
  let main_cst_12 : FVec F S_ .f32 := constant S_ .f32 0x7F800000#32
  let main_v35 : FVec F S4097x1024 .f32 := broadcastInDim S4097x1024 ![] bcast_S_S4097x1024 main_cst_12
  let main_v36 : IVec S4097x1024 1 := cmpf .olt main_v34 main_v35
  let main_c_13 : IVec S_ 1 := constantI S_ 1 1#1
  let main_v37 : IVec S_ 1 := (fun x v => Host.reduce IntOp.andi x v reducesTo_S4097x1024_S_d0_1 h_S_) main_v36 main_c_13
  let main_v38 : IVec S_ 1 := andi main_v33 main_v37
  let main_v39 : FVec F S4097x1024 .f32 := Host.absf main_arg8
  let main_cst_14 : FVec F S_ .f32 := constant S_ .f32 0x7F800000#32
  let main_v40 : FVec F S4097x1024 .f32 := broadcastInDim S4097x1024 ![] bcast_S_S4097x1024 main_cst_14
  let main_v41 : IVec S4097x1024 1 := cmpf .olt main_v39 main_v40
  let main_c_15 : IVec S_ 1 := constantI S_ 1 1#1
  let main_v42 : IVec S_ 1 := (fun x v => Host.reduce IntOp.andi x v reducesTo_S4097x1024_S_d0_1 h_S_) main_v41 main_c_15
  let main_v43 : IVec S_ 1 := andi main_v38 main_v42
  let main_v44 : FVec F S4097 .f32 := Host.absf main_arg9
  let main_cst_16 : FVec F S_ .f32 := constant S_ .f32 0x7F800000#32
  let main_v45 : FVec F S4097 .f32 := broadcastInDim S4097 ![] bcast_S_S4097 main_cst_16
  let main_v46 : IVec S4097 1 := cmpf .olt main_v44 main_v45
  let main_c_17 : IVec S_ 1 := constantI S_ 1 1#1
  let main_v47 : IVec S_ 1 := (fun x v => Host.reduce IntOp.andi x v reducesTo_S4097_S_d0 h_S_) main_v46 main_c_17
  let main_v48 : IVec S_ 1 := andi main_v43 main_v47
  main_v48

def fn_part1 {F : FTy → Type} [FloatOps F] (main_arg4 : FVec F S1x2048 .f32) (main_arg5 : FVec F S1x2048 .f32) (main_arg6 : FVec F S4097x1024 .f32) (main_arg7 : FVec F S4097x1024 .f32) (main_arg8 : FVec F S4097x1024 .f32) (main_arg9 : FVec F S4097 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S4097x1024 .f32 := Host.absf main_arg6
  let main_cst_10 : FVec F S_ .f32 := constant S_ .f32 0x7F800000#32
  let main_v30 : FVec F S4097x1024 .f32 := broadcastInDim S4097x1024 ![] bcast_S_S4097x1024 main_cst_10
  let main_v31 : IVec S4097x1024 1 := cmpf .olt main_v29 main_v30
  let main_c_11 : IVec S_ 1 := constantI S_ 1 1#1
  let main_v32 : IVec S_ 1 := (fun x v => Host.reduce IntOp.andi x v reducesTo_S4097x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x2048 .f32) (main_arg1 : FVec F S1024x2048 .f32) (main_arg2 : FVec F S1024x2048 .f32) (main_arg3 : FVec F S1024x2048 .f32) (main_arg4 : FVec F S1x2048 .f32) (main_arg5 : FVec F S1x2048 .f32) (main_arg6 : FVec F S4097x1024 .f32) (main_arg7 : FVec F S4097x1024 .f32) (main_arg8 : FVec F S4097x1024 .f32) (main_arg9 : FVec F S4097 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_v13 main_v16
-- ==== Kernel.lean ====
abbrev S1024x2048 : Shape := ⟨2, ![1024, 2048]⟩
abbrev S1x2048 : Shape := ⟨2, ![1, 2048]⟩
abbrev S4097x1024 : Shape := ⟨2, ![4097, 1024]⟩
abbrev S4097 : Shape := ⟨1, ![4097]⟩
abbrev S4097x1 : Shape := ⟨2, ![4097, 1]⟩
abbrev S1024x128 : Shape := ⟨2, ![1024, 128]⟩
abbrev S1x128 : Shape := ⟨2, ![1, 128]⟩
abbrev S4097x128 : Shape := ⟨2, ![4097, 128]⟩

abbrev nBuf : Space → Nat
  | .hbm => 19
  | .vmem => 22
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1x2048, .f32⟩
  | .hbm, ⟨5, _⟩ => ⟨S1x2048, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4097x1024, .bf16⟩
  | .hbm, ⟨11, _⟩ => ⟨S4097x1024, .bf16⟩
  | .hbm, ⟨12, _⟩ => ⟨S4097x1024, .bf16⟩
  | .hbm, ⟨13, _⟩ => ⟨S1024x2048, .bf16⟩
  | .hbm, ⟨14, _⟩ => ⟨S1024x2048, .bf16⟩
  | .hbm, ⟨15, _⟩ => ⟨S4097x1, .f32⟩
  | .hbm, ⟨16, _⟩ => ⟨S1024x2048, .f32⟩
  | .hbm, ⟨17, _⟩ => ⟨S1024x2048, .f32⟩
  | .hbm, ⟨18, _⟩ => ⟨S1x2048, .f32⟩
  | .local _ .vmem, ⟨0, _⟩ => ⟨S4097x1024, .bf16⟩
  | .local _ .vmem, ⟨1, _⟩ => ⟨S4097x1024, .bf16⟩
  | .local _ .vmem, ⟨2, _⟩ => ⟨S4097x1024, .bf16⟩
  | .local _ .vmem, ⟨3, _⟩ => ⟨S4097x1, .f32⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x128, .f32⟩
  | .local _ .vmem, ⟨21, _⟩ => ⟨S1x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4097x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4097x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4097x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4097x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S4097_S4097x1 : S4097.ShapeCasts S4097x1
  inb_S4097x1024_S4097x1024_0_0 : ∀ a, (![0, 0] : Fin 2 → Nat) a + S4097x1024.size a ≤ S4097x1024.size a
  h_S4097x1024 : 0 < S4097x1024.numel
  shapeCasts_S4097x1024_S4097x1024 : S4097x1024.ShapeCasts S4097x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4097x128 : S1x128.Broadcasts S4097x128
  inb_S4097x1_S4097x1_0_0 : ∀ a, (![0, 0] : Fin 2 → Nat) a + S4097x1.size a ≤ S4097x1.size a
  h_S4097x1 : 0 < S4097x1.numel
  shapeCasts_S4097x1_S4097x1 : S4097x1.ShapeCasts S4097x1
  broadcasts_S4097x1_S4097x128 : S4097x1.Broadcasts S4097x128
  slices_S4097x128_o0_0_S1024x128 : S4097x128.Slices ![0, 0] S1024x128
  slices_S4097x128_o1024_0_S1024x128 : S4097x128.Slices ![1024, 0] S1024x128
  slices_S4097x128_o2048_0_S1024x128 : S4097x128.Slices ![2048, 0] S1024x128
  slices_S4097x128_o3072_0_S1024x128 : S4097x128.Slices ![3072, 0] S1024x128
  slices_S4097x128_o4096_0_S1x128 : S4097x128.Slices ![4096, 0] S1x128
  broadcasts_S1x128_S1024x128 : S1x128.Broadcasts S1024x128
  natLt_1_32 : 1 < 32
  dot_S4097x1024_S1024x128_S4097x128_1_0_0_1_n_n_wf : DotDims.WF S4097x1024 S1024x128 S4097x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4097x1024.size a ≤ S4097x1024.size a
  hwx0_0 : ∀ i : grid0.Coords, EltTy.bits .bf16 = 32 ∨ (Rect.block (s := S4097x1024) S4097x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4097x1024.size a ≤ S4097x1024.size a
  hwx0_1 : ∀ i : grid0.Coords, EltTy.bits .bf16 = 32 ∨ (Rect.block (s := S4097x1024) S4097x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4097x1024.size a ≤ S4097x1024.size a
  hwx0_2 : ∀ i : grid0.Coords, EltTy.bits .bf16 = 32 ∨ (Rect.block (s := S4097x1024) S4097x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4097x1.size a ≤ S4097x1.size a
  hwx0_3 : ∀ i : grid0.Coords, EltTy.bits .f32 = 32 ∨ (Rect.block (s := S4097x1) S4097x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x2048.size a
  hwx0_4 : ∀ i : grid0.Coords, EltTy.bits .bf16 = 32 ∨ (Rect.block (s := S1024x2048) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x2048.size a
  hwx0_5 : ∀ i : grid0.Coords, EltTy.bits .f32 = 32 ∨ (Rect.block (s := S1024x2048) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x2048.size a
  hwx0_6 : ∀ i : grid0.Coords, EltTy.bits .bf16 = 32 ∨ (Rect.block (s := S1024x2048) S1024x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x2048.size a
  hwx0_7 : ∀ i : grid0.Coords, EltTy.bits .f32 = 32 ∨ (Rect.block (s := S1024x2048) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x2048.size a
  hwx0_8 : ∀ i : grid0.Coords, EltTy.bits .f32 = 32 ∨ (Rect.block (s := S1x2048) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x2048.size a
  hwx0_9 : ∀ i : grid0.Coords, EltTy.bits .f32 = 32 ∨ (Rect.block (s := S1x2048) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x2048.size a
  hwx0_10 : ∀ i : grid0.Coords, EltTy.bits .f32 = 32 ∨ (Rect.block (s := S1024x2048) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S1024x2048.size a
  hwx0_11 : ∀ i : grid0.Coords, EltTy.bits .f32 = 32 ∨ (Rect.block (s := S1024x2048) S1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)

variable [Facts₀]

def dot_S4097x1024_S1024x128_S4097x128_1_0_0_1_n_n : DotDims S4097x1024 S1024x128 S4097x128 where
  lhsContracting := [1]
  rhsContracting := [0]
  lhsNonContracting := [0]
  rhsNonContracting := [1]
  lhsBatch := []
  rhsBatch := []
  wf := dot_S4097x1024_S1024x128_S4097x128_1_0_0_1_n_n_wf

abbrev win0_0 : Pipeline.Window sig grid0 :=
  Pipeline.Window.ofSpec (Memref.whole main_v0) S4097x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4097x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4097x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4097x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S1024x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_2) S1x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S1x2048 : Shape := ⟨2, ![1, 2048]⟩
abbrev S4097x1024 : Shape := ⟨2, ![4097, 1024]⟩
abbrev S4097 : Shape := ⟨1, ![4097]⟩
abbrev S4097x2048 : Shape := ⟨2, ![4097, 2048]⟩
abbrev S4097x1 : Shape := ⟨2, ![4097, 1]⟩
abbrev S_ : Shape := ⟨0, ![]⟩

abbrev nBuf : Space → Nat
  | .hbm => 120
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1x2048, .f32⟩
  | .hbm, ⟨5, _⟩ => ⟨S1x2048, .f32⟩
  | .hbm, ⟨6, _⟩ => ⟨S4097x1024, .f32⟩
  | .hbm, ⟨7, _⟩ => ⟨S4097x1024, .f32⟩
  | .hbm, ⟨8, _⟩ => ⟨S4097x1024, .f32⟩
  | .hbm, ⟨9, _⟩ => ⟨S4097, .f32⟩
  | .hbm, ⟨10, _⟩ => ⟨S4097x2048, .f32⟩
  | .hbm, ⟨11, _⟩ => ⟨S4097x2048, .f32⟩
  | .hbm, ⟨12, _⟩ => ⟨S4097x2048, .f32⟩
  | .hbm, ⟨13, _⟩ => ⟨S4097x2048, .f32⟩
  | .hbm, ⟨14, _⟩ => ⟨S4097x2048, .f32⟩
  | .hbm, ⟨15, _⟩ => ⟨S4097x2048, .f32⟩
  | .hbm, ⟨16, _⟩ => ⟨S4097x2048, .f32⟩
  | .hbm, ⟨17, _⟩ => ⟨S4097x2048, .f32⟩
  | .hbm, ⟨18, _⟩ => ⟨S4097x2048, .f32⟩
  | .hbm, ⟨19, _⟩ => ⟨S4097x1, .f32⟩
  | .hbm, ⟨20, _⟩ => ⟨S4097x2048, .f32⟩
  | .hbm, ⟨21, _⟩ => ⟨S4097x2048, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S1x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S1024x2048, .f32⟩
  | .hbm, ⟨70, _⟩ => ⟨S1024x2048, .f32⟩
  | .hbm, ⟨71, _⟩ => ⟨S1024x2048, .f32⟩
  | .hbm, ⟨72, _⟩ => ⟨S_, .f32⟩
  | .hbm, ⟨73, _⟩ => ⟨S1x2048, .f32⟩
  | .hbm, ⟨74, _⟩ => ⟨S1x2048, .f32⟩
  | .hbm, ⟨75, _⟩ => ⟨S_, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1024x2048, .f32⟩
  | .hbm, ⟨80, _⟩ => ⟨S1024x2048, .f32⟩
  | .hbm, ⟨81, _⟩ => ⟨S1024x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1024x2048, .f32⟩
  | .hbm, ⟨87, _⟩ => ⟨S1024x2048, .f32⟩
  | .hbm, ⟨88, _⟩ => ⟨S1024x2048, .f32⟩
  | .hbm, ⟨89, _⟩ => ⟨S1024x2048, .f32⟩
  | .hbm, ⟨90, _⟩ => ⟨S1024x2048, .f32⟩
  | .hbm, ⟨91, _⟩ => ⟨S1024x2048, .f32⟩
  | .hbm, ⟨92, _⟩ => ⟨S1024x2048, .f32⟩
  | .hbm, ⟨93, _⟩ => ⟨S1024x2048, .f32⟩
  | .hbm, ⟨94, _⟩ => ⟨S1024x2048, .f32⟩
  | .hbm, ⟨95, _⟩ => ⟨S1024x2048, .f32⟩
  | .hbm, ⟨96, _⟩ => ⟨S_, .f32⟩
  | .hbm, ⟨97, _⟩ => ⟨S1x2048, .f32⟩
  | .hbm, ⟨98, _⟩ => ⟨S1x2048, .f32⟩
  | .hbm, ⟨99, _⟩ => ⟨S_, .f32⟩
  | .hbm, ⟨100, _⟩ => ⟨S1x2048, .f32⟩
  | .hbm, ⟨101, _⟩ => ⟨S1x2048, .f32⟩
  | .hbm, ⟨102, _⟩ => ⟨S1x2048, .f32⟩
  | .hbm, ⟨103, _⟩ => ⟨S1024x2048, .f32⟩
  | .hbm, ⟨104, _⟩ => ⟨S1024x2048, .f32⟩
  | .hbm, ⟨105, _⟩ => ⟨S1024x2048, .f32⟩
  | .hbm, ⟨106, _⟩ => ⟨S_, .f32⟩
  | .hbm, ⟨107, _⟩ => ⟨S1x2048, .f32⟩
  | .hbm, ⟨108, _⟩ => ⟨S1x2048, .f32⟩
  | .hbm, ⟨109, _⟩ => ⟨S1x2048, .f32⟩
  | .hbm, ⟨110, _⟩ => ⟨S1024x2048, .f32⟩
  | .hbm, ⟨111, _⟩ => ⟨S1024x2048, .f32⟩
  | .hbm, ⟨112, _⟩ => ⟨S1024x2048, .f32⟩
  | .hbm, ⟨113, _⟩ => ⟨S1024x2048, .f32⟩
  | .hbm, ⟨114, _⟩ => ⟨S_, .f32⟩
  | .hbm, ⟨115, _⟩ => ⟨S1x2048, .f32⟩
  | .hbm, ⟨116, _⟩ => ⟨S1x2048, .i1⟩
  | .hbm, ⟨117, _⟩ => ⟨S1x2048, .f32⟩
  | .hbm, ⟨118, _⟩ => ⟨S1x2048, .f32⟩
  | .hbm, ⟨119, _⟩ => ⟨S1x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  bcast_S1x2048_S4097x2048_0_1 : S1x2048.BroadcastsInDim S4097x2048 (![0, 1] : Fin 2 → Fin S4097x2048.rank)
  bcast_S4097_S4097x1_0 : S4097.BroadcastsInDim S4097x1 (![0] : Fin 1 → Fin S4097x1.rank)
  bcast_S4097x1_S4097x2048_0_1 : S4097x1.BroadcastsInDim S4097x2048 (![0, 1] : Fin 2 → Fin S4097x2048.rank)
  slices_S4097x2048_S1024x2048_0_0 : S4097x2048.Slices ![0, 0] S1024x2048
  slices_S4097x2048_S1024x2048_1024_0 : S4097x2048.Slices ![1024, 0] S1024x2048
  slices_S4097x2048_S1024x2048_2048_0 : S4097x2048.Slices ![2048, 0] S1024x2048
  slices_S4097x2048_S1024x2048_3072_0 : S4097x2048.Slices ![3072, 0] S1024x2048
  slices_S4097x2048_S1x2048_4096_0 : S4097x2048.Slices ![4096, 0] S1x2048
  bcast_S_S1024x2048 : S_.BroadcastsInDim S1024x2048 (![] : Fin 0 → Fin S1024x2048.rank)
  bcast_S_S1x2048 : S_.BroadcastsInDim S1x2048 (![] : Fin 0 → Fin S1x2048.rank)
  bcast_S1x2048_S1024x2048_0_1 : S1x2048.BroadcastsInDim S1024x2048 (![0, 1] : Fin 2 → Fin S1024x2048.rank)
  dot_S4097x1024_S1024x2048_S4097x2048_1_0_0_1_n_n_wf : DotDims.WF S4097x1024 S1024x2048 S4097x2048 [1] [0] [0] [1] [] []

variable [Facts₀]

def dot_S4097x1024_S1024x2048_S4097x2048_1_0_0_1_n_n : DotDims S4097x1024 S1024x2048 S4097x2048 where
  lhsContracting := [1]
  rhsContracting := [0]
  lhsNonContracting := [0]
  rhsNonContracting := [1]
  lhsBatch := []
  rhsBatch := []
  wf := dot_S4097x1024_S1024x2048_S4097x2048_1_0_0_1_n_n_wf

class Facts : Prop extends Facts₀ where

variable [Facts]
-- ==== Proof.Cell.lean ====
/-
  The hierarchical multiscale LSTM cell, as functions of the argument arrays on the extended reals.

  With M = 4·1024 + 1 gate rows and n batch columns, the gate pre-activation of row r and column b is
      pre r b = ((Σₖ W[r,k]·hb[k,b] + z[b]·Σₖ U21[r,k]·ht[k,b]) + z[b]·Σₖ U11[r,k]·h[k,b]) + bias[r],
  rows 0…1023 feed the forget gate, 1024…2047 the input gate, 2048…3071 the output gate, 3072…4095 the
  cell candidate and row 4096 the boundary detector. The new cell state, hidden state and boundary are
      c' = (z·(i·g) + ((1−z)·(1−zb))·c) + ((1−z)·zb)·(f·c + i·g)
      h' = ((z·o)·tanh c' + ((1−z)·(1−zb))·h) + (((1−z)·zb)·o)·tanh c'
      z' = [ min 1 (max 0 ((pre 4096 b + 1)·½)) > ½ ]
  Everything is stated for an arbitrary number n of batch columns, so that the same functions describe a
  block of 128 columns and the whole batch of 2048; `*_cols` says that restricting every batched operand to
  a set of columns restricts the result to those columns.
-/
import Idealize.ShloMosaic.Lib.ValueIdx
import Idealize.ShloMosaic.PureOps.Ideal

noncomputable section

open scoped BigOperators

namespace Cert.Cell

open Idealize.ShloMosaic Idealize.ShloMosaic.ValueIdx

/-- An a × b array of extended reals. -/
abbrev Mat (a b : ℕ) := (⟨2, ![a, b]⟩ : Shape).Idx → EReal

/-- The float words 1, ½ and 0 as extended reals. -/
abbrev one : EReal := Ideal.ofBits .f32 0x3F800000#32
abbrev half : EReal := Ideal.ofBits .f32 0x3F000000#32
abbrev zero : EReal := Ideal.ofBits .f32 0x00000000#32

/-- The gate rows of hidden unit p, and the boundary detector's row. -/
abbrev rowF (p : Fin 1024) : Fin 4097 := ⟨p.val, by omega⟩
abbrev rowI (p : Fin 1024) : Fin 4097 := ⟨p.val + 1024, by omega⟩
abbrev rowO (p : Fin 1024) : Fin 4097 := ⟨p.val + 2048, by omega⟩
abbrev rowG (p : Fin 1024) : Fin 4097 := ⟨p.val + 3072, by omega⟩
abbrev rowZ : Fin 4097 := ⟨4096, by omega⟩

variable {n : ℕ}

/-- The gate pre-activation of row r, column b. -/
def pre (W U11 U21 : Mat 4097 1024) (hb h ht : Mat 1024 n) (z : Mat 1 n) (bias : Fin 4097 → EReal)
    (r : Fin 4097) (b : Fin n) : EReal :=
  (((∑ k : Fin 1024, W (ix2 r k) * hb (ix2 k b))
      + z (ix2 (0 : Fin 1) b) * (∑ k : Fin 1024, U21 (ix2 r k) * ht (ix2 k b)))
    + z (ix2 (0 : Fin 1) b) * (∑ k : Fin 1024, U11 (ix2 r k) * h (ix2 k b)))
  + bias r

/-- The new cell state of hidden unit p, column b. -/
def cNew (W U11 U21 : Mat 4097 1024) (hb h ht c : Mat 1024 n) (z zb : Mat 1 n) (bias : Fin 4097 → EReal)
    (p : Fin 1024) (b : Fin n) : EReal :=
  (z (ix2 (0 : Fin 1) b) * (Ideal.logistic (pre W U11 U21 hb h ht z bias (rowI p) b) * Ideal.tanh (pre W U11 U21 hb h ht z bias (rowG p) b))
      + ((one - z (ix2 (0 : Fin 1) b)) * (one - zb (ix2 (0 : Fin 1) b))) * c (ix2 p b))
    + ((one - z (ix2 (0 : Fin 1) b)) * zb (ix2 (0 : Fin 1) b))
      * (Ideal.logistic (pre W U11 U21 hb h ht z bias (rowF p) b) * c (ix2 p b)
          + Ideal.logistic (pre W U11 U21 hb h ht z bias (rowI p) b) * Ideal.tanh (pre W U11 U21 hb h ht z bias (rowG p) b))

/-- The new hidden state of hidden unit p, column b. -/
def hNew (W U11 U21 : Mat 4097 1024) (hb h ht c : Mat 1024 n) (z zb : Mat 1 n) (bias : Fin 4097 → EReal)
    (p : Fin 1024) (b : Fin n) : EReal :=
  (((z (ix2 (0 : Fin 1) b) * Ideal.logistic (pre W U11 U21 hb h ht z bias (rowO p) b))
        * Ideal.tanh (cNew W U11 U21 hb h ht c z zb bias p b))
      + ((one - z (ix2 (0 : Fin 1) b)) * (one - zb (ix2 (0 : Fin 1) b))) * h (ix2 p b))
    + ((((one - z (ix2 (0 : Fin 1) b)) * zb (ix2 (0 : Fin 1) b)) * Ideal.logistic (pre W U11 U21 hb h ht z bias (rowO p) b))
        * Ideal.tanh (cNew W U11 U21 hb h ht c z zb bias p b))

/-- The hard sigmoid of the boundary detector's pre-activation, column b: clipped into [0, 1]. -/
def zHat (W U11 U21 : Mat 4097 1024) (hb h ht : Mat 1024 n) (z : Mat 1 n) (bias : Fin 4097 → EReal) (b : Fin n) : EReal :=
  min one (max zero ((pre W U11 U21 hb h ht z bias rowZ b + one) * half))

/-- The new boundary of column b: 1 where the hard sigmoid exceeds ½, else 0. -/
def zNew (W U11 U21 : Mat 4097 1024) (hb h ht : Mat 1024 n) (z : Mat 1 n) (bias : Fin 4097 → EReal) (b : Fin n) : EReal :=
  FloatOps.sitofp (F := Ideal) .f32 ((Ideal.cmp .ogt (zHat W U11 U21 hb h ht z bias b) half).setWidth 32)

/-! ## Restriction to columns

If every operand of one instance is, entry by entry, the corresponding operand of another — the batched ones read at
columns σ — the results are the other's read at columns σ: each formula reads its batched operands at its own column only. -/

section cols

variable {n' : ℕ} (σ : Fin n → Fin n')
variable (W U11 U21 W' U11' U21' : Mat 4097 1024) (bias bias' : Fin 4097 → EReal)
variable (hb h ht c : Mat 1024 n) (z zb : Mat 1 n) (hb' h' ht' c' : Mat 1024 n') (z' zb' : Mat 1 n')

theorem pre_cols (eW : ∀ r k, W (ix2 r k) = W' (ix2 r k)) (eU11 : ∀ r k, U11 (ix2 r k) = U11' (ix2 r k))
    (eU21 : ∀ r k, U21 (ix2 r k) = U21' (ix2 r k)) (eb : ∀ r, bias r = bias' r)
    (ehb : ∀ k b, hb (ix2 k b) = hb' (ix2 k (σ b))) (eh : ∀ k b, h (ix2 k b) = h' (ix2 k (σ b)))
    (eht : ∀ k b, ht (ix2 k b) = ht' (ix2 k (σ b))) (ez : ∀ b, z (ix2 (0 : Fin 1) b) = z' (ix2 (0 : Fin 1) (σ b)))
    (r : Fin 4097) (b : Fin n) :
    pre W U11 U21 hb h ht z bias r b = pre W' U11' U21' hb' h' ht' z' bias' r (σ b) := by
  unfold pre
  simp only [eW, eU11, eU21, eb, ehb, eh, eht, ez]

theorem cNew_cols (eW : ∀ r k, W (ix2 r k) = W' (ix2 r k)) (eU11 : ∀ r k, U11 (ix2 r k) = U11' (ix2 r k))
    (eU21 : ∀ r k, U21 (ix2 r k) = U21' (ix2 r k)) (eb : ∀ r, bias r = bias' r)
    (ehb : ∀ k b, hb (ix2 k b) = hb' (ix2 k (σ b))) (eh : ∀ k b, h (ix2 k b) = h' (ix2 k (σ b)))
    (eht : ∀ k b, ht (ix2 k b) = ht' (ix2 k (σ b))) (ec : ∀ k b, c (ix2 k b) = c' (ix2 k (σ b)))
    (ez : ∀ b, z (ix2 (0 : Fin 1) b) = z' (ix2 (0 : Fin 1) (σ b))) (ezb : ∀ b, zb (ix2 (0 : Fin 1) b) = zb' (ix2 (0 : Fin 1) (σ b)))
    (p : Fin 1024) (b : Fin n) :
    cNew W U11 U21 hb h ht c z zb bias p b = cNew W' U11' U21' hb' h' ht' c' z' zb' bias' p (σ b) := by
  unfold cNew
  simp only [pre_cols σ W U11 U21 W' U11' U21' bias bias' hb h ht z hb' h' ht' z' eW eU11 eU21 eb ehb eh eht ez, ec, ez, ezb]

theorem hNew_cols (eW : ∀ r k, W (ix2 r k) = W' (ix2 r k)) (eU11 : ∀ r k, U11 (ix2 r k) = U11' (ix2 r k))
    (eU21 : ∀ r k, U21 (ix2 r k) = U21' (ix2 r k)) (eb : ∀ r, bias r = bias' r)
    (ehb : ∀ k b, hb (ix2 k b) = hb' (ix2 k (σ b))) (eh : ∀ k b, h (ix2 k b) = h' (ix2 k (σ b)))
    (eht : ∀ k b, ht (ix2 k b) = ht' (ix2 k (σ b))) (ec : ∀ k b, c (ix2 k b) = c' (ix2 k (σ b)))
    (ez : ∀ b, z (ix2 (0 : Fin 1) b) = z' (ix2 (0 : Fin 1) (σ b))) (ezb : ∀ b, zb (ix2 (0 : Fin 1) b) = zb' (ix2 (0 : Fin 1) (σ b)))
    (p : Fin 1024) (b : Fin n) :
    hNew W U11 U21 hb h ht c z zb bias p b = hNew W' U11' U21' hb' h' ht' c' z' zb' bias' p (σ b) := by
  unfold hNew
  simp only [pre_cols σ W U11 U21 W' U11' U21' bias bias' hb h ht z hb' h' ht' z' eW eU11 eU21 eb ehb eh eht ez,
    cNew_cols σ W U11 U21 W' U11' U21' bias bias' hb h ht c z zb hb' h' ht' c' z' zb' eW eU11 eU21 eb ehb eh eht ec ez ezb, eh, ez, ezb]

theorem zNew_cols (eW : ∀ r k, W (ix2 r k) = W' (ix2 r k)) (eU11 : ∀ r k, U11 (ix2 r k) = U11' (ix2 r k))
    (eU21 : ∀ r k, U21 (ix2 r k) = U21' (ix2 r k)) (eb : ∀ r, bias r = bias' r)
    (ehb : ∀ k b, hb (ix2 k b) = hb' (ix2 k (σ b))) (eh : ∀ k b, h (ix2 k b) = h' (ix2 k (σ b)))
    (eht : ∀ k b, ht (ix2 k b) = ht' (ix2 k (σ b))) (ez : ∀ b, z (ix2 (0 : Fin 1) b) = z' (ix2 (0 : Fin 1) (σ b)))
    (b : Fin n) :
    zNew W U11 U21 hb h ht z bias b = zNew W' U11' U21' hb' h' ht' z' bias' (σ b) := by
  unfold zNew zHat
  simp only [pre_cols σ W U11 U21 W' U11' U21' bias bias' hb h ht z hb' h' ht' z' eW eU11 eU21 eb ehb eh eht ez]

end cols

end Cert.Cell

end
-- ==== Proof.KernelBlock.lean ====
/-
  What the kernel's body leaves in its three output blocks, as the cell of `Cell.lean` over the body's loaded blocks.

  One grid point loads the three weight matrices whole, the bias column, and the blocks of 128 batch columns of
  h_bottom, h, h_top, c, z and z_bottom. Its three matrix products, each into a zero accumulator, are the three sums of
  the pre-activation; the row of z broadcast down the rows and the bias column broadcast along the columns give the
  rest. The body then cuts the five row ranges, applies the logistic function and tanh, and blends. So at block index
  (p, q) the stored values are the cell's formulas for 128 columns, read at hidden unit p and column q.
-/
import proofs.«144207_j41540923687172_1_alg».proof.Proof.Gen.KernelIdeal.Value
import proofs.«144207_j41540923687172_1_alg».proof.Proof.Cell
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Cert.KernelIdeal.Value Cert.Cell Idealize.ShloMosaic Idealize.ShloMosaic.ValueIdx

/-! ## The matrix product's index maps: row of the left operand, column of the right, the contracted axis shared -/

theorem lhs_axis0 (i : S4097x128.Idx) (q : dot_S4097x1024_S1024x128_S4097x128_1_0_0_1_n_n.contr.Idx) :
    (dot_S4097x1024_S1024x128_S4097x128_1_0_0_1_n_n.lhsIdx i q 0).val = (i 0).val := by
  unfold DotDims.lhsIdx
  rw [dif_neg (show ¬(0 : Fin S4097x1024.rank) ∈ dot_S4097x1024_S1024x128_S4097x128_1_0_0_1_n_n.lhsBatch by decide), dif_pos (show (0 : Fin S4097x1024.rank) ∈ dot_S4097x1024_S1024x128_S4097x128_1_0_0_1_n_n.lhsNonContracting by decide)]
  rfl
theorem lhs_axis1 (i : S4097x128.Idx) (q : dot_S4097x1024_S1024x128_S4097x128_1_0_0_1_n_n.contr.Idx) :
    (dot_S4097x1024_S1024x128_S4097x128_1_0_0_1_n_n.lhsIdx i q 1).val = (q ⟨0, by decide⟩).val :=
  dot_S4097x1024_S1024x128_S4097x128_1_0_0_1_n_n.lhsIdx_val_of_single rfl i q
theorem rhs_axis0 (i : S4097x128.Idx) (q : dot_S4097x1024_S1024x128_S4097x128_1_0_0_1_n_n.contr.Idx) :
    (dot_S4097x1024_S1024x128_S4097x128_1_0_0_1_n_n.rhsIdx i q 0).val = (q ⟨0, by decide⟩).val :=
  dot_S4097x1024_S1024x128_S4097x128_1_0_0_1_n_n.rhsIdx_val_of_single rfl i q
theorem rhs_axis1 (i : S4097x128.Idx) (q : dot_S4097x1024_S1024x128_S4097x128_1_0_0_1_n_n.contr.Idx) :
    (dot_S4097x1024_S1024x128_S4097x128_1_0_0_1_n_n.rhsIdx i q 1).val = (i 1).val := by
  unfold DotDims.rhsIdx
  rw [dif_neg (show ¬(1 : Fin S1024x128.rank) ∈ dot_S4097x1024_S1024x128_S4097x128_1_0_0_1_n_n.rhsBatch by decide), dif_pos (show (1 : Fin S1024x128.rank) ∈ dot_S4097x1024_S1024x128_S4097x128_1_0_0_1_n_n.rhsNonContracting by decide)]
  rfl

/-- A 4097×1024 by 1024×128 product into the zero accumulator is, at (r, q), the sum over k of A[r,k]·B[k,q]. -/
theorem product_apply {φ₁ φ₂ : FTy} (A : FVec Ideal S4097x1024 φ₁) (B : FVec Ideal S1024x128 φ₂) (r : Fin 4097) (q : Fin 128) :
    matmul dot_S4097x1024_S1024x128_S4097x128_1_0_0_1_n_n none A B (constant S4097x128 .f32 0x00000000#32) (ix2 r q)
      = ∑ k : Fin 1024, A (ix2 r k) * B (ix2 k q) := by
  show FloatOps.matmul dot_S4097x1024_S1024x128_S4097x128_1_0_0_1_n_n none A B (constant S4097x128 .f32 0x00000000#32) (ix2 r q) = _
  rw [Ideal.matmul_constant_zero_apply, ← Equiv.sum_comp (ValueIdx.contrEquiv1 dot_S4097x1024_S1024x128_S4097x128_1_0_0_1_n_n 1024 rfl rfl).symm]
  refine Finset.sum_congr rfl fun k _ => ?_
  have hk := ValueIdx.contrEquiv1_symm_val dot_S4097x1024_S1024x128_S4097x128_1_0_0_1_n_n 1024 rfl rfl k
  have el : dot_S4097x1024_S1024x128_S4097x128_1_0_0_1_n_n.lhsIdx (ix2 r q) ((ValueIdx.contrEquiv1 dot_S4097x1024_S1024x128_S4097x128_1_0_0_1_n_n 1024 rfl rfl).symm k) = ix2 r k := funext fun a => Fin.ext (by
    match a with
    | ⟨0, _⟩ => exact lhs_axis0 _ _
    | ⟨1, _⟩ => exact (lhs_axis1 _ _).trans hk)
  have er : dot_S4097x1024_S1024x128_S4097x128_1_0_0_1_n_n.rhsIdx (ix2 r q) ((ValueIdx.contrEquiv1 dot_S4097x1024_S1024x128_S4097x128_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The row of z broadcast down the 4097 gate rows reads its own column. -/
theorem rowBroadcast_apply (v : Vec Ideal S1x128 .f32) (r : Fin 4097) (q : Fin 128) :
    broadcastTo S4097x128 v broadcasts_S1x128_S4097x128 (ix2 r q) = v (ix2 (0 : Fin 1) q) :=
  broadcastTo_apply v _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- The bias column broadcast along the 128 columns reads its own row. -/
theorem colBroadcast_apply (v : Vec Ideal S4097x1 .f32) (r : Fin 4097) (q : Fin 128) :
    broadcastTo S4097x128 v broadcasts_S4097x1_S4097x128 (ix2 r q) = v (ix2 r (0 : Fin 1)) :=
  broadcastTo_apply v _ (ix2 r q) (ix2 r (0 : Fin 1)) (fun a => match a with
    | ⟨0, _⟩ => by show r.val = if (4097 : Nat) = 1 then 0 else r.val; rw [if_neg (by decide)]
    | ⟨1, _⟩ => by show 0 = if (1 : Nat) = 1 then 0 else q.val; rw [if_pos rfl])

variable (P0 : Vec Ideal S1x128 .f32) (P1 P2 P3 : Vec Ideal S4097x1024 .bf16) (P4 P5 : Vec Ideal S1024x128 .bf16)
variable (P6 : Vec Ideal S1024x128 .f32) (P7 : Vec Ideal S4097x1 .f32) (P8 : Vec Ideal S1x128 .f32) (P9 : Vec Ideal S1024x128 .f32)

/-- The bias column as a function of the gate row. -/
abbrev biasOf : Fin 4097 → EReal := fun r => P7 (ix2 r (0 : Fin 1))

/-- The body's pre-activations of its 128 columns (narrowing h to bf16 changes nothing on the extended reals). -/
theorem pre_eq (r : Fin 4097) (q : Fin 128) :
    k0_pay1 (F := Ideal) P1 P2 P3 P4 P5 P6 P0 P7 (ix2 r q) = pre P1 P2 P3 P4 P6 P5 P0 (biasOf P7) r q := by
  unfold k0_pay1
  simp only [shapeCast_self]
  simp only [addf_apply, mulf_apply, product_apply]
  rw [rowBroadcast_apply, colBroadcast_apply]
  rfl

/-! ## The three stored blocks -/

/-- The block stored into the new cell state. -/
theorem cBlock_eq (p : Fin 1024) (q : Fin 128) :
    E11 (F := Ideal) P0 P1 P2 P3 P4 P5 P6 P7 P8 P9 (ix2 p q) = cNew P1 P2 P3 P4 P6 P5 P9 P0 P8 (biasOf P7) p q := by
  have h_ix11_0 : ix11_0 (ix2 p q) = ix2 (0 : Fin 1) q := funext fun a => by match a with | ⟨0, _⟩ => rfl | ⟨1, _⟩ => rfl
  have h_ix11_1 : ix11_1 (ix2 p q) = ix2 (rowI p) q := funext fun a => by match a with | ⟨0, _⟩ => rfl | ⟨1, _⟩ => rfl
  have h_ix11_2 : ix11_2 (ix2 p q) = ix2 (rowG p) q := funext fun a => by match a with | ⟨0, _⟩ => rfl | ⟨1, _⟩ => rfl
  have h_ix11_3 : ix11_3 (ix2 p q) = ix2 (0 : Fin 1) q := funext fun a => by match a with | ⟨0, _⟩ => rfl | ⟨1, _⟩ => rfl
  have h_ix11_4 : ix11_4 (ix2 p q) = ix2 (0 : Fin 1) q := funext fun a => by match a with | ⟨0, _⟩ => rfl | ⟨1, _⟩ => rfl
  have h_ix11_5 : ix11_5 (ix2 p q) = ix2 p q := funext fun a => by match a with | ⟨0, _⟩ => rfl | ⟨1, _⟩ => rfl
  have h_ix11_6 : ix11_6 (ix2 p q) = ix2 (0 : Fin 1) q := funext fun a => by match a with | ⟨0, _⟩ => rfl | ⟨1, _⟩ => rfl
  have h_ix11_7 : ix11_7 (ix2 p q) = ix2 (0 : Fin 1) q := funext fun a => by match a with | ⟨0, _⟩ => rfl | ⟨1, _⟩ => rfl
  have h_ix11_8 : ix11_8 (ix2 p q) = ix2 (rowF p) q := funext fun a => by match a with | ⟨0, _⟩ => rfl | ⟨1, _⟩ => rfl
  have h_ix11_9 : ix11_9 (ix2 p q) = ix2 p q := funext fun a => by match a with | ⟨0, _⟩ => rfl | ⟨1, _⟩ => rfl
  have h_ix11_10 : ix11_10 (ix2 p q) = ix2 (rowI p) q := funext fun a => by match a with | ⟨0, _⟩ => rfl | ⟨1, _⟩ => rfl
  have h_ix11_11 : ix11_11 (ix2 p q) = ix2 (rowG p) q := funext fun a => by match a with | ⟨0, _⟩ => rfl | ⟨1, _⟩ => rfl
  dsimp only [E11]
  simp only [h_ix11_0, h_ix11_1, h_ix11_2, h_ix11_3, h_ix11_4, h_ix11_5, h_ix11_6, h_ix11_7, h_ix11_8, h_ix11_9, h_ix11_10, h_ix11_11, pre_eq]
  rfl

/-- The block stored into the new hidden state. -/
theorem hBlock_eq (p : Fin 1024) (q : Fin 128) :
    E10 (F := Ideal) P0 P1 P2 P3 P4 P5 P6 P7 P8 P9 (ix2 p q) = hNew P1 P2 P3 P4 P6 P5 P9 P0 P8 (biasOf P7) p q := by
  have h_ix10_0 : ix10_0 (ix2 p q) = ix2 (0 : Fin 1) q := funext fun a => by match a with | ⟨0, _⟩ => rfl | ⟨1, _⟩ => rfl
  have h_ix10_1 : ix10_1 (ix2 p q) = ix2 (rowO p) q := funext fun a => by match a with | ⟨0, _⟩ => rfl | ⟨1, _⟩ => rfl
  have h_ix10_2 : ix10_2 (ix2 p q) = ix2 (0 : Fin 1) q := funext fun a => by match a with | ⟨0, _⟩ => rfl | ⟨1, _⟩ => rfl
  have h_ix10_3 : ix10_3 (ix2 p q) = ix2 (rowI p) q := funext fun a => by match a with | ⟨0, _⟩ => rfl | ⟨1, _⟩ => rfl
  have h_ix10_4 : ix10_4 (ix2 p q) = ix2 (rowG p) q := funext fun a => by match a with | ⟨0, _⟩ => rfl | ⟨1, _⟩ => rfl
  have h_ix10_5 : ix10_5 (ix2 p q) = ix2 (0 : Fin 1) q := funext fun a => by match a with | ⟨0, _⟩ => rfl | ⟨1, _⟩ => rfl
  have h_ix10_6 : ix10_6 (ix2 p q) = ix2 (0 : Fin 1) q := funext fun a => by match a with | ⟨0, _⟩ => rfl | ⟨1, _⟩ => rfl
  have h_ix10_7 : ix10_7 (ix2 p q) = ix2 p q := funext fun a => by match a with | ⟨0, _⟩ => rfl | ⟨1, _⟩ => rfl
  have h_ix10_8 : ix10_8 (ix2 p q) = ix2 (0 : Fin 1) q := funext fun a => by match a with | ⟨0, _⟩ => rfl | ⟨1, _⟩ => rfl
  have h_ix10_9 : ix10_9 (ix2 p q) = ix2 (0 : Fin 1) q := funext fun a => by match a with | ⟨0, _⟩ => rfl | ⟨1, _⟩ => rfl
  have h_ix10_10 : ix10_10 (ix2 p q) = ix2 (rowF p) q := funext fun a => by match a with | ⟨0, _⟩ => rfl | ⟨1, _⟩ => rfl
  have h_ix10_11 : ix10_11 (ix2 p q) = ix2 p q := funext fun a => by match a with | ⟨0, _⟩ => rfl | ⟨1, _⟩ => rfl
  have h_ix10_12 : ix10_12 (ix2 p q) = ix2 (rowI p) q := funext fun a => by match a with | ⟨0, _⟩ => rfl | ⟨1, _⟩ => rfl
  have h_ix10_13 : ix10_13 (ix2 p q) = ix2 (rowG p) q := funext fun a => by match a with | ⟨0, _⟩ => rfl | ⟨1, _⟩ => rfl
  have h_ix10_14 : ix10_14 (ix2 p q) = ix2 (0 : Fin 1) q := funext fun a => by match a with | ⟨0, _⟩ => rfl | ⟨1, _⟩ => rfl
  have h_ix10_15 : ix10_15 (ix2 p q) = ix2 (0 : Fin 1) q := funext fun a => by match a with | ⟨0, _⟩ => rfl | ⟨1, _⟩ => rfl
  have h_ix10_16 : ix10_16 (ix2 p q) = ix2 p q := funext fun a => by match a with | ⟨0, _⟩ => rfl | ⟨1, _⟩ => rfl
  have h_ix10_17 : ix10_17 (ix2 p q) = ix2 (0 : Fin 1) q := funext fun a => by match a with | ⟨0, _⟩ => rfl | ⟨1, _⟩ => rfl
  have h_ix10_18 : ix10_18 (ix2 p q) = ix2 (0 : Fin 1) q := funext fun a => by match a with | ⟨0, _⟩ => rfl | ⟨1, _⟩ => rfl
  have h_ix10_19 : ix10_19 (ix2 p q) = ix2 (rowO p) q := funext fun a => by match a with | ⟨0, _⟩ => rfl | ⟨1, _⟩ => rfl
  have h_ix10_20 : ix10_20 (ix2 p q) = ix2 (0 : Fin 1) q := funext fun a => by match a with | ⟨0, _⟩ => rfl | ⟨1, _⟩ => rfl
  have h_ix10_21 : ix10_21 (ix2 p q) = ix2 (rowI p) q := funext fun a => by match a with | ⟨0, _⟩ => rfl | ⟨1, _⟩ => rfl
  have h_ix10_22 : ix10_22 (ix2 p q) = ix2 (rowG p) q := funext fun a => by match a with | ⟨0, _⟩ => rfl | ⟨1, _⟩ => rfl
  have h_ix10_23 : ix10_23 (ix2 p q) = ix2 (0 : Fin 1) q := funext fun a => by match a with | ⟨0, _⟩ => rfl | ⟨1, _⟩ => rfl
  have h_ix10_24 : ix10_24 (ix2 p q) = ix2 (0 : Fin 1) q := funext fun a => by match a with | ⟨0, _⟩ => rfl | ⟨1, _⟩ => rfl
  have h_ix10_25 : ix10_25 (ix2 p q) = ix2 p q := funext fun a => by match a with | ⟨0, _⟩ => rfl | ⟨1, _⟩ => rfl
  have h_ix10_26 : ix10_26 (ix2 p q) = ix2 (0 : Fin 1) q := funext fun a => by match a with | ⟨0, _⟩ => rfl | ⟨1, _⟩ => rfl
  have h_ix10_27 : ix10_27 (ix2 p q) = ix2 (0 : Fin 1) q := funext fun a => by match a with | ⟨0, _⟩ => rfl | ⟨1, _⟩ => rfl
  have h_ix10_28 : ix10_28 (ix2 p q) = ix2 (rowF p) q := funext fun a => by match a with | ⟨0, _⟩ => rfl | ⟨1, _⟩ => rfl
  have h_ix10_29 : ix10_29 (ix2 p q) = ix2 p q := funext fun a => by match a with | ⟨0, _⟩ => rfl | ⟨1, _⟩ => rfl
  have h_ix10_30 : ix10_30 (ix2 p q) = ix2 (rowI p) q := funext fun a => by match a with | ⟨0, _⟩ => rfl | ⟨1, _⟩ => rfl
  have h_ix10_31 : ix10_31 (ix2 p q) = ix2 (rowG p) q := funext fun a => by match a with | ⟨0, _⟩ => rfl | ⟨1, _⟩ => rfl
  dsimp only [E10]
  simp only [h_ix10_0, h_ix10_1, h_ix10_2, h_ix10_3, h_ix10_4, h_ix10_5, h_ix10_6, h_ix10_7, h_ix10_8, h_ix10_9, h_ix10_10, h_ix10_11, h_ix10_12, h_ix10_13, h_ix10_14, h_ix10_15, h_ix10_16, h_ix10_17, h_ix10_18, h_ix10_19, h_ix10_20, h_ix10_21, h_ix10_22, h_ix10_23, h_ix10_24, h_ix10_25, h_ix10_26, h_ix10_27, h_ix10_28, h_ix10_29, h_ix10_30, h_ix10_31, pre_eq]
  rfl

/-- The block stored into the new boundary: the last pre-activation row, clipped and thresholded. -/
theorem zBlock_eq (q : Fin 128) :
    k0_pay13 (F := Ideal) (k0_pay6 P1 P2 P3 P4 P5 P6 P0 P7) (Scalar.ofBits .f32 0x3F000000#32) (ix2 (0 : Fin 1) q)
      = zNew P1 P2 P3 P4 P6 P5 P0 (biasOf P7) q := by
  have e : extractStridedSlice S1x128 ![4096, 0] (k0_pay1 (F := Ideal) P1 P2 P3 P4 P5 P6 P0 P7) slices_S4097x128_o4096_0_S1x128 (ix2 (0 : Fin 1) q)
      = pre P1 P2 P3 P4 P6 P5 P0 (biasOf P7) rowZ q :=
    (extractStridedSlice_apply ![4096, 0] _ _ (ix2 (0 : Fin 1) q) (ix2 rowZ q) (fun a => match a with
      | ⟨0, _⟩ => by show 4096 = 4096 + 0; rfl
      | ⟨1, _⟩ => by show q.val = 0 + q.val; omega)).trans (pre_eq P0 P1 P2 P3 P4 P5 P6 P7 rowZ q)
  unfold k0_pay13 k0_pay6
  simp only [sitofp_apply, extui_apply, cmpf_apply, minimumf_apply, maximumf_apply, mulf_apply, addf_apply, broadcast_apply]
  rw [e]
  rfl

/-! ## The body's three results over its ten input blocks, in the order of the windows

Windows 0, 1, 2 hold W_hh, U_11, U_21, window 3 the bias column, windows 4 … 9 the blocks of h_bottom, h, h_top, c, z and
z_bottom; every load and store is of the whole block. -/

section windows

variable (x0 x1 x2 : Vec Ideal S4097x1024 .bf16) (x3 : Vec Ideal S4097x1 .f32) (x4 : Vec Ideal S1024x128 .bf16)
variable (x5 : Vec Ideal S1024x128 .f32) (x6 : Vec Ideal S1024x128 .bf16) (x7 : Vec Ideal S1024x128 .f32) (x8 x9 : Vec Ideal S1x128 .f32)

theorem hz : (![0, 0] : Fin 2 → Nat) = fun _ => 0 := funext fun a => by fin_cases a <;> rfl

/-- The block left for the new hidden state. -/
theorem out10_apply (y : S1024x128.Idx) :
    out0_10 (F := Ideal) x0 x1 x2 x3 x4 x5 x6 x7 x8 x9 y = hNew x0 x1 x2 x4 x5 x6 x7 x8 x9 (biasOf x3) (y 0) (y 1) := by
  obtain ⟨p, q, rfl⟩ : ∃ (p : Fin 1024) (q : Fin 128), y = ix2 p q := ⟨y 0, y 1, eq_ix2 y⟩
  unfold out0_10
  simp only [View.ld_unit_zero (S := S4097x1024) hz, View.ld_unit_zero (S := S1024x128) hz,
    View.ld_unit_zero (S := S1x128) hz, View.ld_unit_zero (S := S4097x1) hz]
  rw [canon10_eq x8 x0 x1 x2 x4 x6 x5 x3 x9 x7]
  exact hBlock_eq x8 x0 x1 x2 x4 x6 x5 x3 x9 x7 p q

/-- The block left for the new cell state. -/
theorem out11_apply (y : S1024x128.Idx) :
    out0_11 (F := Ideal) x0 x1 x2 x3 x4 x5 x6 x7 x8 x9 y = cNew x0 x1 x2 x4 x5 x6 x7 x8 x9 (biasOf x3) (y 0) (y 1) := by
  obtain ⟨p, q, rfl⟩ : ∃ (p : Fin 1024) (q : Fin 128), y = ix2 p q := ⟨y 0, y 1, eq_ix2 y⟩
  unfold out0_11
  simp only [View.ld_unit_zero (S := S4097x1024) hz, View.ld_unit_zero (S := S1024x128) hz,
    View.ld_unit_zero (S := S1x128) hz, View.ld_unit_zero (S := S4097x1) hz]
  rw [canon11_eq x8 x0 x1 x2 x4 x6 x5 x3 x9 x7]
  exact cBlock_eq x8 x0 x1 x2 x4 x6 x5 x3 x9 x7 p q

/-- The block left for the new boundary. -/
theorem out12_apply (y : S1x128.Idx) :
    out0_12 (F := Ideal) x0 x1 x2 x3 x4 x5 x6 x7 x8 x9 y = zNew x0 x1 x2 x4 x5 x6 x8 (biasOf x3) (y 1) := by
  obtain ⟨u, q, rfl⟩ : ∃ (u : Fin 1) (q : Fin 128), y = ix2 u q := ⟨y 0, y 1, eq_ix2 y⟩
  obtain rfl : u = 0 := Subsingleton.elim _ _
  unfold out0_12
  simp only [View.ld_unit_zero (S := S4097x1024) hz, View.ld_unit_zero (S := S1024x128) hz,
    View.ld_unit_zero (S := S1x128) hz, View.ld_unit_zero (S := S4097x1) hz]
  rw [View.canon_unit_zero hz]
  exact zBlock_eq x8 x0 x1 x2 x4 x6 x5 x3 q

end windows

end Cert.KernelIdeal.Block

end
-- ==== Proof.KernelArray.lean ====
/-
  From the kernel's blocks to its three result arrays.

  The grid has 16 points; point t works on batch columns 128·t … 128·t + 127. Before the region @main narrows the
  weights, h_bottom and h_top to bf16 (nothing on the extended reals) and reshapes the bias to a column. The weight and
  bias windows stay at block (0, 0); every batched window, inputs and outputs alike, is at block (0, t). So the block an
  input window stages at point t is its argument array at the columns 128·t + q, what point t writes back is the cell of
  the whole arrays read at those columns, and the 16 blocks of an output cover its array: after the run the three
  result arrays hold the cell of the argument arrays.
-/
import proofs.«144207_j41540923687172_1_alg».proof.Proof.Gen.KernelIdeal.Value
import proofs.«144207_j41540923687172_1_alg».proof.Proof.KernelBlock
import Idealize.ShloMosaic.Lib.Pipeline.Value
import Idealize.ShloMosaic.Lib.StableHlo.Run
import Idealize.ShloMosaic.Lib.ValueLayout

noncomputable section

namespace Cert.KernelIdeal.Arrays

open Cert.KernelIdeal Cert.KernelIdeal.Gen Cert.KernelIdeal.Value Cert.KernelIdeal.Block Cert.Cell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays -/

abbrev argC (c : Dev nD) : Mat 1024 2048 := m ((c : Thread nD τ).loc main_arg0)
abbrev argHb (c : Dev nD) : Mat 1024 2048 := m ((c : Thread nD τ).loc main_arg1)
abbrev argH (c : Dev nD) : Mat 1024 2048 := m ((c : Thread nD τ).loc main_arg2)
abbrev argHt (c : Dev nD) : Mat 1024 2048 := m ((c : Thread nD τ).loc main_arg3)
abbrev argZ (c : Dev nD) : Mat 1 2048 := m ((c : Thread nD τ).loc main_arg4)
abbrev argZb (c : Dev nD) : Mat 1 2048 := m ((c : Thread nD τ).loc main_arg5)
abbrev argW (c : Dev nD) : Mat 4097 1024 := m ((c : Thread nD τ).loc main_arg6)
abbrev argU11 (c : Dev nD) : Mat 4097 1024 := m ((c : Thread nD τ).loc main_arg7)
abbrev argU21 (c : Dev nD) : Mat 4097 1024 := m ((c : Thread nD τ).loc main_arg8)
abbrev argBias (c : Dev nD) : Fin 4097 → EReal := fun r => (m ((c : Thread nD τ).loc main_arg9) : S4097.Idx → EReal) (ix1 r)

/-! ## What the host operations before the region leave in the arrays the windows stage -/

theorem V_W (c : Dev nD) : (V m c main_v0 : S4097x1024.Idx → EReal) = argW m c := by
  dsimp only [Gen.V, Gen.hostOps0]; after_results; rfl
theorem V_U11 (c : Dev nD) : (V m c main_v1 : S4097x1024.Idx → EReal) = argU11 m c := by
  dsimp only [Gen.V, Gen.hostOps0]; after_results; rfl
theorem V_U21 (c : Dev nD) : (V m c main_v2 : S4097x1024.Idx → EReal) = argU21 m c := by
  dsimp only [Gen.V, Gen.hostOps0]; after_results; rfl
theorem V_Hb (c : Dev nD) : (V m c main_v3 : S1024x2048.Idx → EReal) = argHb m c := by
  dsimp only [Gen.V, Gen.hostOps0]; after_results; rfl
theorem V_Ht (c : Dev nD) : (V m c main_v4 : S1024x2048.Idx → EReal) = argHt m c := by
  dsimp only [Gen.V, Gen.hostOps0]; after_results; rfl
theorem V_Bias (c : Dev nD) : (V m c main_v5 : S4097x1.Idx → EReal)
    = shapeCast S4097x1 (m ((c : Thread nD τ).loc main_arg9) : S4097.Idx → EReal) shapeCasts_S4097_S4097x1 := by
  dsimp only [Gen.V, Gen.hostOps0]; after_results; rfl

/-! ## Where the windows' blocks sit (decided over the 16 grid points) -/

/-- The weight and bias windows stay at block (0, 0). -/
theorem idxFixed : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0) :=
  (by decide +kernel : ∀ t : Fin grid0.N, _)

/-- Every batched window, inputs and outputs, is at block (0, t). -/
theorem idxBatched : ∀ t : Fin cfg0.N,
    (win0_4.index t (0 : Fin 2) = 0 ∧ win0_4.index t (1 : Fin 2) = t.val) ∧ (win0_5.index t (0 : Fin 2) = 0 ∧ win0_5.index t (1 : Fin 2) = t.val)
    ∧ (win0_6.index t (0 : Fin 2) = 0 ∧ win0_6.index t (1 : Fin 2) = t.val) ∧ (win0_7.index t (0 : Fin 2) = 0 ∧ win0_7.index t (1 : Fin 2) = t.val)
    ∧ (win0_8.index t (0 : Fin 2) = 0 ∧ win0_8.index t (1 : Fin 2) = t.val) ∧ (win0_9.index t (0 : Fin 2) = 0 ∧ win0_9.index t (1 : Fin 2) = t.val)
    ∧ (win0_10.index t (0 : Fin 2) = 0 ∧ win0_10.index t (1 : Fin 2) = t.val) ∧ (win0_11.index t (0 : Fin 2) = 0 ∧ win0_11.index t (1 : Fin 2) = t.val)
    ∧ (win0_12.index t (0 : Fin 2) = 0 ∧ win0_12.index t (1 : Fin 2) = t.val) :=
  (by decide +kernel : ∀ t : Fin grid0.N, _)

/-- The batch column that column q of point t's blocks is. -/
def col (t : Fin cfg0.N) (q : Fin 128) : Fin 2048 :=
  ⟨128 * t.val + q.val, by have := t.isLt; have hN : cfg0.N = 16 := N_0; have := q.isLt; omega⟩

/-! ## The input windows' blocks at point t, as entries of the argument arrays -/

abbrev bW (c : Dev nD) (t : Fin cfg0.N) : Vec Ideal S4097x1024 .bf16 := iblk m c 0 t
abbrev bU11 (c : Dev nD) (t : Fin cfg0.N) : Vec Ideal S4097x1024 .bf16 := iblk m c 1 t
abbrev bU21 (c : Dev nD) (t : Fin cfg0.N) : Vec Ideal S4097x1024 .bf16 := iblk m c 2 t
abbrev bBias (c : Dev nD) (t : Fin cfg0.N) : Vec Ideal S4097x1 .f32 := iblk m c 3 t
abbrev bHb (c : Dev nD) (t : Fin cfg0.N) : Vec Ideal S1024x128 .bf16 := iblk m c 4 t
abbrev bH (c : Dev nD) (t : Fin cfg0.N) : Vec Ideal S1024x128 .f32 := iblk m c 5 t
abbrev bHt (c : Dev nD) (t : Fin cfg0.N) : Vec Ideal S1024x128 .bf16 := iblk m c 6 t
abbrev bC (c : Dev nD) (t : Fin cfg0.N) : Vec Ideal S1024x128 .f32 := iblk m c 7 t
abbrev bZ (c : Dev nD) (t : Fin cfg0.N) : Vec Ideal S1x128 .f32 := iblk m c 8 t
abbrev bZb (c : Dev nD) (t : Fin cfg0.N) : Vec Ideal S1x128 .f32 := iblk m c 9 t

theorem bW_apply (c : Dev nD) (t : Fin cfg0.N) (r : Fin 4097) (k : Fin 1024) :
    bW m c t (ix2 r k) = argW m c (ix2 r k) := by
  obtain ⟨h0, h1⟩ := (idxFixed t).1
  unfold bW iblk
  rw [View.read_apply]
  show (V m c main_v0 : S4097x1024.Idx → EReal) _ = _
  rw [V_W m c]
  congr 1
  funext a; apply Fin.ext
  match a with
  | ⟨0, _⟩ => show win0_0.index t (0 : Fin 2) * 4097 + 1 * r.val = r.val; rw [h0]; omega
  | ⟨1, _⟩ => show win0_0.index t (1 : Fin 2) * 1024 + 1 * k.val = k.val; rw [h1]; omega

theorem bU11_apply (c : Dev nD) (t : Fin cfg0.N) (r : Fin 4097) (k : Fin 1024) :
    bU11 m c t (ix2 r k) = argU11 m c (ix2 r k) := by
  obtain ⟨h0, h1⟩ := (idxFixed t).2.1
  unfold bU11 iblk
  rw [View.read_apply]
  show (V m c main_v1 : S4097x1024.Idx → EReal) _ = _
  rw [V_U11 m c]
  congr 1
  funext a; apply Fin.ext
  match a with
  | ⟨0, _⟩ => show win0_1.index t (0 : Fin 2) * 4097 + 1 * r.val = r.val; rw [h0]; omega
  | ⟨1, _⟩ => show win0_1.index t (1 : Fin 2) * 1024 + 1 * k.val = k.val; rw [h1]; omega

theorem bU21_apply (c : Dev nD) (t : Fin cfg0.N) (r : Fin 4097) (k : Fin 1024) :
    bU21 m c t (ix2 r k) = argU21 m c (ix2 r k) := by
  obtain ⟨h0, h1⟩ := (idxFixed t).2.2.1
  unfold bU21 iblk
  rw [View.read_apply]
  show (V m c main_v2 : S4097x1024.Idx → EReal) _ = _
  rw [V_U21 m c]
  congr 1
  funext a; apply Fin.ext
  match a with
  | ⟨0, _⟩ => show win0_2.index t (0 : Fin 2) * 4097 + 1 * r.val = r.val; rw [h0]; omega
  | ⟨1, _⟩ => show win0_2.index t (1 : Fin 2) * 1024 + 1 * k.val = k.val; rw [h1]; omega

theorem bBias_apply (c : Dev nD) (t : Fin cfg0.N) (r : Fin 4097) :
    bBias m c t (ix2 r (0 : Fin 1)) = argBias m c r := by
  obtain ⟨h0, h1⟩ := (idxFixed t).2.2.2
  unfold bBias iblk
  rw [View.read_apply]
  show (V m c main_v5 : S4097x1.Idx → EReal) _ = _
  rw [V_Bias m c]
  refine shapeCast_apply _ _ _ (ix1 r) ?_
  rw [Shape.rowMajor_val_two, Shape.rowMajor_val_one]
  show r.val = (win0_3.index t (0 : Fin 2) * 4097 + 1 * r.val) * 1 + (win0_3.index t (1 : Fin 2) * 1 + 1 * 0)
  rw [h0, h1]; omega

theorem bHb_apply (c : Dev nD) (t : Fin cfg0.N) (k : Fin 1024) (q : Fin 128) :
    bHb m c t (ix2 k q) = argHb m c (ix2 k (col t q)) := by
  obtain ⟨h0, h1⟩ := (idxBatched t).1
  unfold bHb iblk
  rw [View.read_apply]
  show (V m c main_v3 : S1024x2048.Idx → EReal) _ = _
  rw [V_Hb m c]
  congr 1
  funext a; apply Fin.ext
  match a with
  | ⟨0, _⟩ => show win0_4.index t (0 : Fin 2) * 1024 + 1 * k.val = k.val; rw [h0]; omega
  | ⟨1, _⟩ => show win0_4.index t (1 : Fin 2) * 128 + 1 * q.val = 128 * t.val + q.val; rw [h1]; omega

theorem bH_apply (c : Dev nD) (t : Fin cfg0.N) (k : Fin 1024) (q : Fin 128) :
    bH m c t (ix2 k q) = argH m c (ix2 k (col t q)) := by
  obtain ⟨h0, h1⟩ := (idxBatched t).2.1
  unfold bH iblk
  rw [View.read_apply]
  show (V m c main_arg2 : S1024x2048.Idx → EReal) _ = _
  rw [V_main_arg2 m c]
  congr 1
  funext a; apply Fin.ext
  match a with
  | ⟨0, _⟩ => show win0_5.index t (0 : Fin 2) * 1024 + 1 * k.val = k.val; rw [h0]; omega
  | ⟨1, _⟩ => show win0_5.index t (1 : Fin 2) * 128 + 1 * q.val = 128 * t.val + q.val; rw [h1]; omega

theorem bHt_apply (c : Dev nD) (t : Fin cfg0.N) (k : Fin 1024) (q : Fin 128) :
    bHt m c t (ix2 k q) = argHt m c (ix2 k (col t q)) := by
  obtain ⟨h0, h1⟩ := (idxBatched t).2.2.1
  unfold bHt iblk
  rw [View.read_apply]
  show (V m c main_v4 : S1024x2048.Idx → EReal) _ = _
  rw [V_Ht m c]
  congr 1
  funext a; apply Fin.ext
  match a with
  | ⟨0, _⟩ => show win0_6.index t (0 : Fin 2) * 1024 + 1 * k.val = k.val; rw [h0]; omega
  | ⟨1, _⟩ => show win0_6.index t (1 : Fin 2) * 128 + 1 * q.val = 128 * t.val + q.val; rw [h1]; omega

theorem bC_apply (c : Dev nD) (t : Fin cfg0.N) (k : Fin 1024) (q : Fin 128) :
    bC m c t (ix2 k q) = argC m c (ix2 k (col t q)) := by
  obtain ⟨h0, h1⟩ := (idxBatched t).2.2.2.1
  unfold bC iblk
  rw [View.read_apply]
  show (V m c main_arg0 : S1024x2048.Idx → EReal) _ = _
  rw [V_main_arg0 m c]
  congr 1
  funext a; apply Fin.ext
  match a with
  | ⟨0, _⟩ => show win0_7.index t (0 : Fin 2) * 1024 + 1 * k.val = k.val; rw [h0]; omega
  | ⟨1, _⟩ => show win0_7.index t (1 : Fin 2) * 128 + 1 * q.val = 128 * t.val + q.val; rw [h1]; omega

theorem bZ_apply (c : Dev nD) (t : Fin cfg0.N) (q : Fin 128) :
    bZ m c t (ix2 (0 : Fin 1) q) = argZ m c (ix2 (0 : Fin 1) (col t q)) := by
  obtain ⟨h0, h1⟩ := (idxBatched t).2.2.2.2.1
  unfold bZ iblk
  rw [View.read_apply]
  show (V m c main_arg4 : S1x2048.Idx → EReal) _ = _
  rw [V_main_arg4 m c]
  congr 1
  funext a; apply Fin.ext
  match a with
  | ⟨0, _⟩ => show win0_8.index t (0 : Fin 2) * 1 + 1 * 0 = 0; rw [h0]
  | ⟨1, _⟩ => show win0_8.index t (1 : Fin 2) * 128 + 1 * q.val = 128 * t.val + q.val; rw [h1]; omega

theorem bZb_apply (c : Dev nD) (t : Fin cfg0.N) (q : Fin 128) :
    bZb m c t (ix2 (0 : Fin 1) q) = argZb m c (ix2 (0 : Fin 1) (col t q)) := by
  obtain ⟨h0, h1⟩ := (idxBatched t).2.2.2.2.2.1
  unfold bZb iblk
  rw [View.read_apply]
  show (V m c main_arg5 : S1x2048.Idx → EReal) _ = _
  rw [V_main_arg5 m c]
  congr 1
  funext a; apply Fin.ext
  match a with
  | ⟨0, _⟩ => show win0_9.index t (0 : Fin 2) * 1 + 1 * 0 = 0; rw [h0]
  | ⟨1, _⟩ => show win0_9.index t (1 : Fin 2) * 128 + 1 * q.val = 128 * t.val + q.val; rw [h1]; omega

/-! ## The three result arrays as the cell of the argument arrays -/

abbrev cellH (c : Dev nD) : S1024x2048.Idx → EReal := fun i =>
  hNew (argW m c) (argU11 m c) (argU21 m c) (argHb m c) (argH m c) (argHt m c) (argC m c) (argZ m c) (argZb m c) (argBias m c) (i 0) (i 1)
abbrev cellC (c : Dev nD) : S1024x2048.Idx → EReal := fun i =>
  cNew (argW m c) (argU11 m c) (argU21 m c) (argHb m c) (argH m c) (argHt m c) (argC m c) (argZ m c) (argZb m c) (argBias m c) (i 0) (i 1)
abbrev cellZ (c : Dev nD) : S1x2048.Idx → EReal := fun i =>
  zNew (argW m c) (argU11 m c) (argU21 m c) (argHb m c) (argH m c) (argHt m c) (argZ m c) (argBias m c) (i 1)

/-! ## What point t writes back: the cell of the whole arrays, read at its 128 columns -/

theorem flushedH (c : Dev nD) (t : Fin cfg0.N) :
    (dats m 0 c).flushed 10 t = ((cfg0.win 10).blk t).view.read (Elt Ideal) (cellH m c) := by
  rw [Value.flushed10]
  obtain ⟨h0, h1⟩ := (idxBatched t).2.2.2.2.2.2.1
  funext y
  show out0_10 (bW m c t) (bU11 m c t) (bU21 m c t) (bBias m c t) (bHb m c t) (bH m c t) (bHt m c t) (bC m c t) (bZ m c t) (bZb m c t) y = cellH m c (((cfg0.win 10).blk t).view.emb y)
  refine (out10_apply (bW m c t) (bU11 m c t) (bU21 m c t) (bBias m c t) (bHb m c t) (bH m c t) (bHt m c t) (bC m c t) (bZ m c t) (bZb m c t) y).trans ?_
  refine (hNew_cols (col t) (bW m c t) (bU11 m c t) (bU21 m c t) (argW m c) (argU11 m c) (argU21 m c) (Block.biasOf (bBias m c t)) (argBias m c)
    (bHb m c t) (bH m c t) (bHt m c t) (bC m c t) (bZ m c t) (bZb m c t) (argHb m c) (argH m c) (argHt m c) (argC m c) (argZ m c) (argZb m c)
    (bW_apply m c t) (bU11_apply m c t) (bU21_apply m c t) (bBias_apply m c t) (bHb_apply m c t) (bH_apply m c t) (bHt_apply m c t)
    (bC_apply m c t) (bZ_apply m c t) (bZb_apply m c t) (y 0) (y 1)).trans ?_
  have e0 : y 0 = (((cfg0.win 10).blk t).view.emb y) 0 := Fin.ext (by
    show (y 0).val = win0_10.index t (0 : Fin 2) * 1024 + 1 * (y 0).val; rw [h0]; omega)
  have e1 : col t (y 1) = (((cfg0.win 10).blk t).view.emb y) 1 := Fin.ext (by
    show 128 * t.val + (y 1).val = win0_10.index t (1 : Fin 2) * 128 + 1 * (y 1).val; rw [h1]; omega)
  show hNew _ _ _ _ _ _ _ _ _ _ (y 0) (col t (y 1)) = hNew _ _ _ _ _ _ _ _ _ _ ((((cfg0.win 10).blk t).view.emb y) 0) ((((cfg0.win 10).blk t).view.emb y) 1)
  rw [← e0, ← e1]
  rfl

theorem flushedC (c : Dev nD) (t : Fin cfg0.N) :
    (dats m 0 c).flushed 11 t = ((cfg0.win 11).blk t).view.read (Elt Ideal) (cellC m c) := by
  rw [Value.flushed11]
  obtain ⟨h0, h1⟩ := (idxBatched t).2.2.2.2.2.2.2.1
  funext y
  show out0_11 (bW m c t) (bU11 m c t) (bU21 m c t) (bBias m c t) (bHb m c t) (bH m c t) (bHt m c t) (bC m c t) (bZ m c t) (bZb m c t) y = cellC m c (((cfg0.win 11).blk t).view.emb y)
  refine (out11_apply (bW m c t) (bU11 m c t) (bU21 m c t) (bBias m c t) (bHb m c t) (bH m c t) (bHt m c t) (bC m c t) (bZ m c t) (bZb m c t) y).trans ?_
  refine (cNew_cols (col t) (bW m c t) (bU11 m c t) (bU21 m c t) (argW m c) (argU11 m c) (argU21 m c) (Block.biasOf (bBias m c t)) (argBias m c)
    (bHb m c t) (bH m c t) (bHt m c t) (bC m c t) (bZ m c t) (bZb m c t) (argHb m c) (argH m c) (argHt m c) (argC m c) (argZ m c) (argZb m c)
    (bW_apply m c t) (bU11_apply m c t) (bU21_apply m c t) (bBias_apply m c t) (bHb_apply m c t) (bH_apply m c t) (bHt_apply m c t)
    (bC_apply m c t) (bZ_apply m c t) (bZb_apply m c t) (y 0) (y 1)).trans ?_
  have e0 : y 0 = (((cfg0.win 11).blk t).view.emb y) 0 := Fin.ext (by
    show (y 0).val = win0_11.index t (0 : Fin 2) * 1024 + 1 * (y 0).val; rw [h0]; omega)
  have e1 : col t (y 1) = (((cfg0.win 11).blk t).view.emb y) 1 := Fin.ext (by
    show 128 * t.val + (y 1).val = win0_11.index t (1 : Fin 2) * 128 + 1 * (y 1).val; rw [h1]; omega)
  show cNew _ _ _ _ _ _ _ _ _ _ (y 0) (col t (y 1)) = cNew _ _ _ _ _ _ _ _ _ _ ((((cfg0.win 11).blk t).view.emb y) 0) ((((cfg0.win 11).blk t).view.emb y) 1)
  rw [← e0, ← e1]
  rfl

theorem flushedZ (c : Dev nD) (t : Fin cfg0.N) :
    (dats m 0 c).flushed 12 t = ((cfg0.win 12).blk t).view.read (Elt Ideal) (cellZ m c) := by
  rw [Value.flushed12]
  obtain ⟨h0, h1⟩ := (idxBatched t).2.2.2.2.2.2.2.2
  funext y
  show out0_12 (bW m c t) (bU11 m c t) (bU21 m c t) (bBias m c t) (bHb m c t) (bH m c t) (bHt m c t) (bC m c t) (bZ m c t) (bZb m c t) y = cellZ m c (((cfg0.win 12).blk t).view.emb y)
  refine (out12_apply (bW m c t) (bU11 m c t) (bU21 m c t) (bBias m c t) (bHb m c t) (bH m c t) (bHt m c t) (bC m c t) (bZ m c t) (bZb m c t) y).trans ?_
  refine (zNew_cols (col t) (bW m c t) (bU11 m c t) (bU21 m c t) (argW m c) (argU11 m c) (argU21 m c) (Block.biasOf (bBias m c t)) (argBias m c)
    (bHb m c t) (bH m c t) (bHt m c t) (bZ m c t) (argHb m c) (argH m c) (argHt m c) (argZ m c)
    (bW_apply m c t) (bU11_apply m c t) (bU21_apply m c t) (bBias_apply m c t) (bHb_apply m c t) (bH_apply m c t) (bHt_apply m c t)
    (bZ_apply m c t) (y 1)).trans ?_
  have e1 : col t (y 1) = (((cfg0.win 12).blk t).view.emb y) 1 := Fin.ext (by
    show 128 * t.val + (y 1).val = win0_12.index t (1 : Fin 2) * 128 + 1 * (y 1).val; rw [h1]; omega)
  show zNew _ _ _ _ _ _ _ _ (col t (y 1)) = zNew _ _ _ _ _ _ _ _ ((((cfg0.win 12).blk t).view.emb y) 1)
  rw [← e1]
  rfl

/-! ## The 16 blocks of each output cover its array -/

theorem memH (t : Fin cfg0.N) (i : S1024x2048.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v6_0).slice (win0_10.rect t)).set ↔ _
  rw [View.set_slice_whole, Rect.mem_set_unit]
  exact Iff.rfl

/-- Index (p, b) lies in the block of point b / 128. -/
theorem coverH (i : S1024x2048.Idx) :
    ∃ t : Fin cfg0.N, (cfg0.win 10).flush t = true ∧ i ∈ ((cfg0.win 10).blk t).view.set := by
  have hi0 : (i 0).val < 1024 := (i 0).isLt
  have hi1 : (i 1).val < 2048 := (i 1).isLt
  have hN : cfg0.N = 16 := N_0
  have ht : (i 1).val / 128 < cfg0.N := by omega
  obtain ⟨h0, h1⟩ := (idxBatched ⟨(i 1).val / 128, ht⟩).2.2.2.2.2.2.1
  have h1' : win0_10.index ⟨(i 1).val / 128, ht⟩ (1 : Fin 2) = (i 1).val / 128 := h1
  refine ⟨⟨(i 1).val / 128, ht⟩, flush0_10 _, ?_⟩
  rw [memH]
  intro a
  match a with
  | ⟨0, _⟩ =>
    show win0_10.index ⟨(i 1).val / 128, ht⟩ (0 : Fin 2) * 1024 ≤ (i 0).val ∧ (i 0).val < win0_10.index ⟨(i 1).val / 128, ht⟩ (0 : Fin 2) * 1024 + 1024
    rw [h0]; omega
  | ⟨1, _⟩ =>
    show win0_10.index ⟨(i 1).val / 128, ht⟩ (1 : Fin 2) * 128 ≤ (i 1).val ∧ (i 1).val < win0_10.index ⟨(i 1).val / 128, ht⟩ (1 : Fin 2) * 128 + 128
    rw [h1']; omega

/-- After the run the array holds the cell of the argument arrays. -/
theorem finalH (c : Dev nD) : (dats m 0 c).arrAt 10 cfg0.N = cellH m c :=
  (dats m 0 c).arrAt_eq_of_cover 10 (cellH m c) (fun t _ => flushedH m c t) coverH

theorem memC (t : Fin cfg0.N) (i : S1024x2048.Idx) :
    i ∈ ((cfg0.win 11).blk t).view.set ↔ ∀ a : Fin 2, win0_11.index t a * S1024x128.size a ≤ (i a).val ∧ (i a).val < win0_11.index t a * S1024x128.size a + S1024x128.size a := by
  show i ∈ ((View.whole main_v6_1).slice (win0_11.rect t)).set ↔ _
  rw [View.set_slice_whole, Rect.mem_set_unit]
  exact Iff.rfl

/-- Index (p, b) lies in the block of point b / 128. -/
theorem coverC (i : S1024x2048.Idx) :
    ∃ t : Fin cfg0.N, (cfg0.win 11).flush t = true ∧ i ∈ ((cfg0.win 11).blk t).view.set := by
  have hi0 : (i 0).val < 1024 := (i 0).isLt
  have hi1 : (i 1).val < 2048 := (i 1).isLt
  have hN : cfg0.N = 16 := N_0
  have ht : (i 1).val / 128 < cfg0.N := by omega
  obtain ⟨h0, h1⟩ := (idxBatched ⟨(i 1).val / 128, ht⟩).2.2.2.2.2.2.2.1
  have h1' : win0_11.index ⟨(i 1).val / 128, ht⟩ (1 : Fin 2) = (i 1).val / 128 := h1
  refine ⟨⟨(i 1).val / 128, ht⟩, flush0_11 _, ?_⟩
  rw [memC]
  intro a
  match a with
  | ⟨0, _⟩ =>
    show win0_11.index ⟨(i 1).val / 128, ht⟩ (0 : Fin 2) * 1024 ≤ (i 0).val ∧ (i 0).val < win0_11.index ⟨(i 1).val / 128, ht⟩ (0 : Fin 2) * 1024 + 1024
    rw [h0]; omega
  | ⟨1, _⟩ =>
    show win0_11.index ⟨(i 1).val / 128, ht⟩ (1 : Fin 2) * 128 ≤ (i 1).val ∧ (i 1).val < win0_11.index ⟨(i 1).val / 128, ht⟩ (1 : Fin 2) * 128 + 128
    rw [h1']; omega

/-- After the run the array holds the cell of the argument arrays. -/
theorem finalC (c : Dev nD) : (dats m 0 c).arrAt 11 cfg0.N = cellC m c :=
  (dats m 0 c).arrAt_eq_of_cover 11 (cellC m c) (fun t _ => flushedC m c t) coverC

theorem memZ (t : Fin cfg0.N) (i : S1x2048.Idx) :
    i ∈ ((cfg0.win 12).blk t).view.set ↔ ∀ a : Fin 2, win0_12.index t a * S1x128.size a ≤ (i a).val ∧ (i a).val < win0_12.index t a * S1x128.size a + S1x128.size a := by
  show i ∈ ((View.whole main_v6_2).slice (win0_12.rect t)).set ↔ _
  rw [View.set_slice_whole, Rect.mem_set_unit]
  exact Iff.rfl

/-- Index (p, b) lies in the block of point b / 128. -/
theorem coverZ (i : S1x2048.Idx) :
    ∃ t : Fin cfg0.N, (cfg0.win 12).flush t = true ∧ i ∈ ((cfg0.win 12).blk t).view.set := by
  have hi0 : (i 0).val < 1 := (i 0).isLt
  have hi1 : (i 1).val < 2048 := (i 1).isLt
  have hN : cfg0.N = 16 := N_0
  have ht : (i 1).val / 128 < cfg0.N := by omega
  obtain ⟨h0, h1⟩ := (idxBatched ⟨(i 1).val / 128, ht⟩).2.2.2.2.2.2.2.2
  have h1' : win0_12.index ⟨(i 1).val / 128, ht⟩ (1 : Fin 2) = (i 1).val / 128 := h1
  refine ⟨⟨(i 1).val / 128, ht⟩, flush0_12 _, ?_⟩
  rw [memZ]
  intro a
  match a with
  | ⟨0, _⟩ =>
    show win0_12.index ⟨(i 1).val / 128, ht⟩ (0 : Fin 2) * 1 ≤ (i 0).val ∧ (i 0).val < win0_12.index ⟨(i 1).val / 128, ht⟩ (0 : Fin 2) * 1 + 1
    rw [h0]; omega
  | ⟨1, _⟩ =>
    show win0_12.index ⟨(i 1).val / 128, ht⟩ (1 : Fin 2) * 128 ≤ (i 1).val ∧ (i 1).val < win0_12.index ⟨(i 1).val / 128, ht⟩ (1 : Fin 2) * 128 + 128
    rw [h1']; omega

/-- After the run the array holds the cell of the argument arrays. -/
theorem finalZ (c : Dev nD) : (dats m 0 c).arrAt 12 cfg0.N = cellZ m c :=
  (dats m 0 c).arrAt_eq_of_cover 12 (cellZ m c) (fun t _ => flushedZ m c t) coverZ

/-! ## The run, read -/

/-- Every weakly fair execution of the kernel's program ends with the three result arrays at the cell of the argument
    arrays, and the arguments as they were. -/
theorem run : θ_run defs (onTc (τ := τ) (main (F := Ideal))) ⟨m, fun _ => 0, ρ⟩ fun r => ∀ c : Dev nD,
      r.2.mem ((c : Thread nD τ).loc main_v6_0) = cellH m c
      ∧ r.2.mem ((c : Thread nD τ).loc main_v6_1) = cellC m c
      ∧ r.2.mem ((c : Thread nD τ).loc main_v6_2) = cellZ m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (finalH m c), (h c).2.1.trans (finalC m c),
      (h c).2.2.1.trans (finalZ m c), (h c).2.2.2⟩)
    (Value.run_blocks m ρ)

end Cert.KernelIdeal.Arrays

end
-- ==== Proof.Laws.lean ====
/-
  The scalar facts that join the kernel's and the reference's spellings of the cell.

  * The float words 1, ½, 2 and 0 denote those reals.
  * The logistic function: the reference spells σ(x) as 1 / (1 + e^(−x)) with a division; on the extended reals that
    quotient is the logistic function itself, at every argument (σ(−∞) = 0, σ(+∞) = 1).
  * The hard sigmoid: (x·1 + 1) / 2 = (x + 1)·½ at every extended real, since multiplying by 1 changes nothing and
    dividing by the nonzero real 2 is multiplying by its reciprocal.
  * The straight-through boundary: ẑ + (hard − ẑ) = hard as soon as ẑ is a real number, which it is once clipped into
    [0, 1]; and the indicator of ẑ > ½ is the same real whether the comparison bit is read unsigned, or widened to 32
    bits by zeros and read signed.
-/
import proofs.«144207_j41540923687172_1_alg».proof.Proof.Cell
import Idealize.ShloMosaic.PureOps.Ideal.Laws

noncomputable section

namespace Cert.Cell

open Idealize.ShloMosaic

theorem one_eq : one = 1 := by
  simp [one, Ideal.ofBits, Ideal.ieee, -EReal.coe_mul]; norm_num

theorem half_eq : half = ((1 / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem zero_eq : zero = 0 := Ideal.ofBits_zero_f32

/-- The reference's quotient 1 / (1 + e^(−x)) is the logistic function. -/
theorem logistic_quotient (x : EReal) : Ideal.div one (one + Ideal.exp (-x)) = Ideal.logistic x := by
  rw [one_eq]; rfl

/-- The reference's (x·1 + 1) / 2 is the kernel's (x + 1)·½. -/
theorem hardSigmoid_quotient (x : EReal) :
    Ideal.div (x * one + one) (Ideal.ofBits .f32 0x40000000#32) = (x + one) * half := by
  rw [two_eq, Ideal.div_coe (by norm_num : (2 : ℝ) ≠ 0), half_eq, one_eq, mul_one]

/-- A value clipped into [0, 1] is a real number. -/
theorem clip_real (y : EReal) : ∃ r : ℝ, min one (max zero y) = (r : EReal) := by
  have h1 : min one (max zero y) ≤ 1 := by rw [one_eq]; exact min_le_left _ _
  have h0 : (0 : EReal) ≤ min one (max zero y) := by
    rw [one_eq, zero_eq]; exact le_min zero_le_one (le_max_left _ _)
  refine ⟨(min one (max zero y)).toReal, (EReal.coe_toReal ?_ ?_).symm⟩
  · intro h; rw [h] at h1; exact absurd (top_le_iff.mp h1) (by simpa using EReal.coe_ne_top 1)
  · intro h; rw [h] at h0; exact absurd (le_bot_iff.mp h0) (by simpa using EReal.coe_ne_bot 0)

/-- The comparison bit read unsigned, and widened by zeros and read signed, is the same real. -/
theorem indicator_eq (b : BitVec 1) :
    FloatOps.uitofp (F := Ideal) .f32 b = FloatOps.sitofp (F := Ideal) .f32 (b.setWidth 32) := by
  show ((b.toNat : ℝ) : EReal) = (((b.setWidth 32).toInt : ℝ) : EReal)
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · simp
  · have : ((1#1 : BitVec 1).setWidth 32).toInt = 1 := by decide
    rw [this]; simp

/-- The straight-through boundary ẑ + (hard − ẑ) is hard, for ẑ clipped into [0, 1]. -/
theorem straightThrough (y : EReal) :
    min one (max zero y) + (FloatOps.uitofp (F := Ideal) .f32 (Ideal.cmp .ogt (min one (max zero y)) half) - min one (max zero y))
      = FloatOps.sitofp (F := Ideal) .f32 ((Ideal.cmp .ogt (min one (max zero y)) half).setWidth 32) := by
  rw [← indicator_eq]
  obtain ⟨r, hr⟩ := clip_real y
  rw [hr]
  show (r : EReal) + ((((Ideal.cmp .ogt (r : EReal) half).toNat : ℝ) : EReal) - (r : EReal)) = (((Ideal.cmp .ogt (r : EReal) half).toNat : ℝ) : EReal)
  rw [← EReal.coe_sub, ← EReal.coe_add]
  congr 1
  ring

end Cert.Cell

end
-- ==== Proof.RefCell.lean ====
/-
  The reference computes the cell: its three results, read one operation at a time, are the functions of
  `Cell.lean` of the whole argument arrays.

  The reference forms the gate pre-activations of all 4097 rows and all 2048 columns, cuts the five row ranges out of
  them, spells each logistic function as the quotient 1 / (1 + e^(−x)), the hard sigmoid as (x·1 + 1) / 2, and the new
  boundary as ẑ + (hard − ẑ). Index by index these are the cell's formulas, by the scalar facts of `Laws.lean`.
-/
import proofs.«144207_j41540923687172_1_alg».proof.Proof.Gen.ReferenceIdeal.Read
import proofs.«144207_j41540923687172_1_alg».proof.Proof.Laws

noncomputable section

namespace Cert.ReferenceIdeal.RefCell

open Cert.ReferenceIdeal Cert.ReferenceIdeal.Read Cert.Cell Idealize.ShloMosaic Idealize.ShloMosaic.ValueIdx Idealize.ShloMosaic.TcCoe Idealize.SL.Sem

variable (x0 x1 x2 x3 : (⟨S1024x2048, .f32⟩ : BufTy).Contents (Elt Ideal)) (x4 x5 : (⟨S1x2048, .f32⟩ : BufTy).Contents (Elt Ideal))
variable (x6 x7 x8 : (⟨S4097x1024, .f32⟩ : BufTy).Contents (Elt Ideal)) (x9 : (⟨S4097, .f32⟩ : BufTy).Contents (Elt Ideal))

/-- The bias vector as a function of the gate row. -/
abbrev biasOf : Fin 4097 → EReal := fun r => x9 (ix1 r)

/-- The sum of the three products plus the bias, at row r and column b, is the cell's pre-activation. -/
theorem pre_eq (r : Fin 4097) (b : Fin 2048) :
    val_main_v11 (F := Ideal) x1 x2 x3 x4 x6 x7 x8 x9 (ix2 r b) = pre x6 x7 x8 x1 x2 x3 x4 (biasOf x9) r b := by
  have el0 : ∀ k, lidx_main_v0 (ix2 r b) k = ix2 r k := fun k => funext fun a => by match a with | ⟨0, _⟩ => rfl | ⟨1, _⟩ => rfl
  have er0 : ∀ k, ridx_main_v0 (ix2 r b) k = ix2 k b := fun k => funext fun a => by match a with | ⟨0, _⟩ => rfl | ⟨1, _⟩ => rfl
  have el1 : ∀ k, lidx_main_v1 (ix2 r b) k = ix2 r k := fun k => funext fun a => by match a with | ⟨0, _⟩ => rfl | ⟨1, _⟩ => rfl
  have er1 : ∀ k, ridx_main_v1 (ix2 r b) k = ix2 k b := fun k => funext fun a => by match a with | ⟨0, _⟩ => rfl | ⟨1, _⟩ => rfl
  have el4 : ∀ k, lidx_main_v4 (ix2 r b) k = ix2 r k := fun k => funext fun a => by match a with | ⟨0, _⟩ => rfl | ⟨1, _⟩ => rfl
  have er4 : ∀ k, ridx_main_v4 (ix2 r b) k = ix2 k b := fun k => funext fun a => by match a with | ⟨0, _⟩ => rfl | ⟨1, _⟩ => rfl
  have ez2 : idx_main_v2 (ix2 r b) = ix2 (0 : Fin 1) b := funext fun a => by match a with | ⟨0, _⟩ => rfl | ⟨1, _⟩ => rfl
  have ez5 : idx_main_v5 (ix2 r b) = ix2 (0 : Fin 1) b := funext fun a => by match a with | ⟨0, _⟩ => rfl | ⟨1, _⟩ => rfl
  have eb : idx_main_v9 (idx_main_v10 (ix2 r b)) = ix1 r := funext fun a => by match a with | ⟨0, _⟩ => rfl
  rw [val_main_v11_apply, val_main_v8_apply, val_main_v7_apply, val_main_v0_apply, val_main_v3_apply, val_main_v2_apply,
    val_main_v1_apply, val_main_v6_apply, val_main_v5_apply, val_main_v4_apply, val_main_v10_apply, val_main_v9_apply]
  simp only [el0, er0, el1, er1, el4, er4, ez2, ez5, eb]
  rfl

/-! ## The five row ranges cut out of the pre-activations -/

theorem gateF_eq (p : Fin 1024) (b : Fin 2048) :
    val_main_v12 (F := Ideal) x1 x2 x3 x4 x6 x7 x8 x9 (ix2 p b) = pre x6 x7 x8 x1 x2 x3 x4 (biasOf x9) (rowF p) b := by
  have e : idx_main_v12 (ix2 p b) = ix2 (rowF p) b := funext fun a => by match a with | ⟨0, _⟩ => rfl | ⟨1, _⟩ => rfl
  rw [val_main_v12_apply, e, pre_eq]

theorem gateI_eq (p : Fin 1024) (b : Fin 2048) :
    val_main_v13 (F := Ideal) x1 x2 x3 x4 x6 x7 x8 x9 (ix2 p b) = pre x6 x7 x8 x1 x2 x3 x4 (biasOf x9) (rowI p) b := by
  have e : idx_main_v13 (ix2 p b) = ix2 (rowI p) b := funext fun a => by
    match a with | ⟨0, _⟩ => exact Fin.ext (Nat.add_comm _ _) | ⟨1, _⟩ => rfl
  rw [val_main_v13_apply, e, pre_eq]

theorem gateO_eq (p : Fin 1024) (b : Fin 2048) :
    val_main_v14 (F := Ideal) x1 x2 x3 x4 x6 x7 x8 x9 (ix2 p b) = pre x6 x7 x8 x1 x2 x3 x4 (biasOf x9) (rowO p) b := by
  have e : idx_main_v14 (ix2 p b) = ix2 (rowO p) b := funext fun a => by
    match a with | ⟨0, _⟩ => exact Fin.ext (Nat.add_comm _ _) | ⟨1, _⟩ => rfl
  rw [val_main_v14_apply, e, pre_eq]

theorem gateG_eq (p : Fin 1024) (b : Fin 2048) :
    val_main_v15 (F := Ideal) x1 x2 x3 x4 x6 x7 x8 x9 (ix2 p b) = pre x6 x7 x8 x1 x2 x3 x4 (biasOf x9) (rowG p) b := by
  have e : idx_main_v15 (ix2 p b) = ix2 (rowG p) b := funext fun a => by
    match a with | ⟨0, _⟩ => exact Fin.ext (Nat.add_comm _ _) | ⟨1, _⟩ => rfl
  rw [val_main_v15_apply, e, pre_eq]

theorem gateZ_eq (b : Fin 2048) :
    val_main_v16 (F := Ideal) x1 x2 x3 x4 x6 x7 x8 x9 (ix2 (0 : Fin 1) b) = pre x6 x7 x8 x1 x2 x3 x4 (biasOf x9) rowZ b := by
  have e : idx_main_v16 (ix2 (0 : Fin 1) b) = ix2 rowZ b := funext fun a => by
    match a with | ⟨0, _⟩ => exact Fin.ext rfl | ⟨1, _⟩ => rfl
  rw [val_main_v16_apply, e, pre_eq]

/-! ## The three results -/

/-- A row vector of the batch broadcast down the 1024 hidden units reads its own column. -/
theorem bcol (p : Fin 1024) (b : Fin 2048) : idx_main_v44 (ix2 p b) = ix2 (0 : Fin 1) b :=
  funext fun a => by match a with | ⟨0, _⟩ => rfl | ⟨1, _⟩ => rfl

/-- The reference's second result is the new cell state. -/
theorem cNew_eq (p : Fin 1024) (b : Fin 2048) :
    val_main_v62 (F := Ideal) x0 x1 x2 x3 x4 x5 x6 x7 x8 x9 (ix2 p b) = cNew x6 x7 x8 x1 x2 x3 x0 x4 x5 (biasOf x9) p b := by
  have e51 : idx_main_v51 (ix2 p b) = ix2 (0 : Fin 1) b := bcol p b
  have e60 : idx_main_v60 (ix2 p b) = ix2 (0 : Fin 1) b := bcol p b
  simp only [val_main_v62_apply, val_main_v53_apply, val_main_v45_apply, val_main_v44_apply, val_main_v43_apply,
    val_main_v28_apply, val_main_v27_apply, val_main_cst_2_apply, val_main_v26_apply, val_main_v25_apply,
    val_main_cst_1_apply, val_main_v24_apply, val_main_v23_apply, val_main_v35_apply, val_main_v52_apply,
    val_main_v51_apply, val_main_v50_apply, val_main_v47_apply, val_main_v46_apply, val_main_cst_10_apply,
    val_main_v49_apply, val_main_v48_apply, val_main_cst_11_apply, val_main_v61_apply, val_main_v60_apply,
    val_main_v56_apply, val_main_v55_apply, val_main_v54_apply, val_main_cst_12_apply, val_main_v59_apply,
    val_main_v57_apply, val_main_v22_apply, val_main_v21_apply, val_main_cst_0_apply, val_main_v20_apply,
    val_main_v19_apply, val_main_cst_apply, val_main_v18_apply, val_main_v17_apply, val_main_v58_apply,
    gateF_eq, gateI_eq, gateG_eq, bcol, e51, e60,
    Ideal.addf_def, Ideal.subf_def, Ideal.mulf_def, Ideal.negf_def, Ideal.hostNegf_def, Ideal.hostDivf_def,
    Ideal.hostUnary_exp_def, Ideal.hostUnary_tanh_def, Ideal.ofBits_def, logistic_quotient]
  rfl

/-- The reference's first result is the new hidden state. -/
theorem hNew_eq (p : Fin 1024) (b : Fin 2048) :
    val_main_v81 (F := Ideal) x0 x1 x2 x3 x4 x5 x6 x7 x8 x9 (ix2 p b) = hNew x6 x7 x8 x1 x2 x3 x0 x4 x5 (biasOf x9) p b := by
  have e64 : idx_main_v64 (ix2 p b) = ix2 (0 : Fin 1) b := bcol p b
  have e72 : idx_main_v72 (ix2 p b) = ix2 (0 : Fin 1) b := bcol p b
  have e78 : idx_main_v78 (ix2 p b) = ix2 (0 : Fin 1) b := bcol p b
  simp only [val_main_v81_apply, val_main_v74_apply, val_main_v66_apply, val_main_v65_apply, val_main_v64_apply,
    val_main_v34_apply, val_main_v33_apply, val_main_cst_4_apply, val_main_v32_apply, val_main_v31_apply,
    val_main_cst_3_apply, val_main_v30_apply, val_main_v29_apply, val_main_v63_apply, val_main_v73_apply,
    val_main_v72_apply, val_main_v71_apply, val_main_v68_apply, val_main_v67_apply, val_main_cst_13_apply,
    val_main_v70_apply, val_main_v69_apply, val_main_cst_14_apply, val_main_v80_apply, val_main_v79_apply,
    val_main_v78_apply, val_main_v77_apply, val_main_v76_apply, val_main_v75_apply, val_main_cst_15_apply,
    gateO_eq, cNew_eq, e64, e72, e78,
    Ideal.addf_def, Ideal.subf_def, Ideal.mulf_def, Ideal.negf_def, Ideal.hostNegf_def, Ideal.hostDivf_def,
    Ideal.hostUnary_exp_def, Ideal.hostUnary_tanh_def, Ideal.ofBits_def, logistic_quotient]
  rfl

/-- The reference's third result is the new boundary. -/
theorem zNew_eq (b : Fin 2048) :
    val_main_v86 (F := Ideal) x1 x2 x3 x4 x6 x7 x8 x9 (ix2 (0 : Fin 1) b) = zNew x6 x7 x8 x1 x2 x3 x4 (biasOf x9) b := by
  simp only [val_main_v86_apply, val_main_v85_apply, val_main_v84_apply, val_main_v83_apply, val_main_v82_apply,
    val_main_cst_16_apply, val_main_v42_apply, val_main_call0_v4_apply, val_main_call0_v3_apply, val_main_cst_9_apply,
    val_main_call0_v2_apply, val_main_call0_v1_apply, val_main_call0_v0_apply, val_main_cst_8_apply,
    val_main_v41_apply, val_main_v40_apply, val_main_cst_7_apply, val_main_v39_apply, val_main_v38_apply,
    val_main_cst_6_apply, val_main_v37_apply, val_main_v36_apply, val_main_cst_5_apply, gateZ_eq,
    Ideal.addf_def, Ideal.subf_def, Ideal.mulf_def, Ideal.hostDivf_def, Ideal.maximumf_def, Ideal.minimumf_def,
    Ideal.ofBits_def, hardSigmoid_quotient]
  unfold zNew zHat
  exact straightThrough _

/-! ## The reference's three result arrays -/

section results

variable (m : (ℓ : Loc nD τ sig) → Buf (Elt Ideal) ℓ) (c : Dev nD)

/-- The first result array is the new hidden state of the argument arrays. -/
theorem resH : Cert.ReferenceIdeal.Value.res_main_v81 m c = fun i : S1024x2048.Idx =>
    hNew (m ((c.tc : Thread nD τ).loc main_arg6)) (m ((c.tc : Thread nD τ).loc main_arg7)) (m ((c.tc : Thread nD τ).loc main_arg8)) (m ((c.tc : Thread nD τ).loc main_arg1)) (m ((c.tc : Thread nD τ).loc main_arg2)) (m ((c.tc : Thread nD τ).loc main_arg3)) (m ((c.tc : Thread nD τ).loc main_arg0)) (m ((c.tc : Thread nD τ).loc main_arg4)) (m ((c.tc : Thread nD τ).loc main_arg5)) (biasOf (m ((c.tc : Thread nD τ).loc main_arg9))) (i 0) (i 1) := by
  rw [val_main_v81_eq]
  funext i
  obtain ⟨p, b, rfl⟩ : ∃ (p : Fin 1024) (b : Fin 2048), i = ix2 p b := ⟨i 0, i 1, eq_ix2 i⟩
  exact hNew_eq _ _ _ _ _ _ _ _ _ _ p b

/-- The second result array is the new cell state of the argument arrays. -/
theorem resC : Cert.ReferenceIdeal.Value.res_main_v62 m c = fun i : S1024x2048.Idx =>
    cNew (m ((c.tc : Thread nD τ).loc main_arg6)) (m ((c.tc : Thread nD τ).loc main_arg7)) (m ((c.tc : Thread nD τ).loc main_arg8)) (m ((c.tc : Thread nD τ).loc main_arg1)) (m ((c.tc : Thread nD τ).loc main_arg2)) (m ((c.tc : Thread nD τ).loc main_arg3)) (m ((c.tc : Thread nD τ).loc main_arg0)) (m ((c.tc : Thread nD τ).loc main_arg4)) (m ((c.tc : Thread nD τ).loc main_arg5)) (biasOf (m ((c.tc : Thread nD τ).loc main_arg9))) (i 0) (i 1) := by
  rw [val_main_v62_eq]
  funext i
  obtain ⟨p, b, rfl⟩ : ∃ (p : Fin 1024) (b : Fin 2048), i = ix2 p b := ⟨i 0, i 1, eq_ix2 i⟩
  exact cNew_eq _ _ _ _ _ _ _ _ _ _ p b

/-- The third result array is the new boundary of the argument arrays. -/
theorem resZ : Cert.ReferenceIdeal.Value.res_main_v86 m c = fun i : S1x2048.Idx =>
    zNew (m ((c.tc : Thread nD τ).loc main_arg6)) (m ((c.tc : Thread nD τ).loc main_arg7)) (m ((c.tc : Thread nD τ).loc main_arg8)) (m ((c.tc : Thread nD τ).loc main_arg1)) (m ((c.tc : Thread nD τ).loc main_arg2)) (m ((c.tc : Thread nD τ).loc main_arg3)) (m ((c.tc : Thread nD τ).loc main_arg4)) (biasOf (m ((c.tc : Thread nD τ).loc main_arg9))) (i 1) := by
  rw [val_main_v86_eq]
  funext i
  obtain ⟨u, b, rfl⟩ : ∃ (u : Fin 1) (b : Fin 2048), i = ix2 u b := ⟨i 0, i 1, eq_ix2 i⟩
  obtain rfl : u = 0 := Subsingleton.elim _ _
  exact zNew_eq _ _ _ _ _ _ _ _ b

end results

end Cert.ReferenceIdeal.RefCell

end
-- ==== Proof.lean ====
/-
  The certificate of the hierarchical multiscale LSTM cell kernel against its jnp reference, on the extended reals.

  The kernel tiles the batch into 16 blocks of 128 columns; each grid point forms the 4097 gate pre-activations of its
  columns from three matrix products (operands narrowed to bf16, which changes nothing on the extended reals), cuts the
  forget, input, output and candidate rows and the boundary row, and blends the new cell state, hidden state and
  boundary. The reference does the same on whole arrays, spelling the logistic function as 1 / (1 + e^(−x)), the hard
  sigmoid as (x·1 + 1) / 2 and the boundary as ẑ + (hard − ẑ). Both are the functions of `Proof/Cell.lean`:
  `Proof/KernelBlock.lean` and `Proof/KernelArray.lean` read them off the kernel's run, `Proof/RefCell.lean` off the
  reference's, and `Proof/Laws.lean` has the scalar facts that join the spellings (none needs a finite input).
-/
import proofs.«144207_j41540923687172_1_alg».proof.Defs
import proofs.«144207_j41540923687172_1_alg».proof.Proof.Gen.Kernel
import proofs.«144207_j41540923687172_1_alg».proof.Proof.Gen.Kernel.Skeleton
import proofs.«144207_j41540923687172_1_alg».proof.Proof.Gen.Kernel.Launch
import proofs.«144207_j41540923687172_1_alg».proof.Proof.Gen.Kernel.Points
import proofs.«144207_j41540923687172_1_alg».proof.Proof.Gen.Kernel.Frame
import proofs.«144207_j41540923687172_1_alg».proof.Proof.Gen.KernelIdeal
import proofs.«144207_j41540923687172_1_alg».proof.Proof.Gen.KernelIdeal.Skeleton
import proofs.«144207_j41540923687172_1_alg».proof.Proof.Gen.KernelIdeal.Launch
import proofs.«144207_j41540923687172_1_alg».proof.Proof.Gen.KernelIdeal.Points
import proofs.«144207_j41540923687172_1_alg».proof.Proof.Gen.KernelIdeal.Frame
import proofs.«144207_j41540923687172_1_alg».proof.Proof.Gen.ReferenceIdeal
import proofs.«144207_j41540923687172_1_alg».proof.Proof.Gen.Pre_finite_inputs
import proofs.«144207_j41540923687172_1_alg».proof.Proof.Gen.KernelIdeal.Value
import proofs.«144207_j41540923687172_1_alg».proof.Proof.Gen.ReferenceIdeal.Run
import proofs.«144207_j41540923687172_1_alg».proof.Proof.Gen.ReferenceIdeal.Read
import proofs.«144207_j41540923687172_1_alg».proof.Proof.KernelArray
import proofs.«144207_j41540923687172_1_alg».proof.Proof.RefCell
import Idealize.ShloMosaic.Adequacy
import Idealize.ShloMosaic.Init

noncomputable section

namespace Cert.Proof

open Idealize.ShloMosaic Idealize.SL.Sem

/-- The kernel's program runs, at the word level, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories agreeing on the ten arguments, both programs end with the new hidden state, cell state and boundary
    of `Cell.lean` in their three result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Arrays.cellH m c, fun c => Cert.KernelIdeal.Arrays.cellC m c,
    fun c => Cert.KernelIdeal.Arrays.cellZ m c, Cert.KernelIdeal.Arrays.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2⟩
  · rw [Cert.ReferenceIdeal.RefCell.resH, a0, a1, a2, a3, a4, a5, a6, a7, a8, a9]
  · rw [Cert.ReferenceIdeal.RefCell.resC, a0, a1, a2, a3, a4, a5, a6, a7, a8, a9]
  · rw [Cert.ReferenceIdeal.RefCell.resZ, a1, a2, a3, a4, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
